-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256 : Shape := ⟨2, ![16, 256]⟩
abbrev S16x8192x256 : Shape := ⟨3, ![16, 8192, 256]⟩
abbrev S256x256 : Shape := ⟨2, ![256, 256]⟩
abbrev S256x1 : Shape := ⟨2, ![256, 1]⟩
abbrev S_ : Shape := ⟨0, ![]⟩

class Facts : Prop where
  bcast_S_S16x256 : S_.BroadcastsInDim S16x256 (![] : Fin 0 → Fin S16x256.rank)
  reducesTo_S16x256_S_d0_1 : S16x256.ReducesTo [0, 1] S_
  h_S_ : 0 < S_.numel
  bcast_S_S16x8192x256 : S_.BroadcastsInDim S16x8192x256 (![] : Fin 0 → Fin S16x8192x256.rank)
  reducesTo_S16x8192x256_S_d0_1_2 : S16x8192x256.ReducesTo [0, 1, 2] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_

variable [Facts]

def fn_part1 {F : FTy → Type} [FloatOps F] (main_arg4 : FVec F S256x1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x1 .f32 := Host.absf main_arg4
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  main_v23

def fn {F : FTy → Type} [FloatOps F] (main_arg0 : FVec F S16x256 .f32) (main_arg1 : FVec F S16x8192x256 .f32) (main_arg2 : FVec F S256x256 .f32) (main_arg3 : FVec F S256x256 .f32) (main_arg4 : FVec F S256x1 .f32) : IVec S_ 1 :=
  let main_v0 : FVec F S16x256 .f32 := Host.absf main_arg0
  let main_cst : FVec F S_ .f32 := constant S_ .f32 0x7F800000#32
  let main_v1 : FVec F S16x256 .f32 := broadcastInDim S16x256 ![] bcast_S_S16x256 main_cst
  let main_v2 : IVec S16x256 1 := cmpf .olt main_v0 main_v1
  let main_c : IVec S_ 1 := constantI S_ 1 1#1
  let main_v3 : IVec S_ 1 := (fun x v => Host.reduce IntOp.andi x v reducesTo_S16x256_S_d0_1 h_S_) main_v2 main_c
  let main_v4 : FVec F S16x8192x256 .f32 := Host.absf main_arg1
  let main_cst_0 : FVec F S_ .f32 := constant S_ .f32 0x7F800000#32
  let main_v5 : FVec F S16x8192x256 .f32 := broadcastInDim S16x8192x256 ![] bcast_S_S16x8192x256 main_cst_0
  let main_v6 : IVec S16x8192x256 1 := cmpf .olt main_v4 main_v5
  let main_c_1 : IVec S_ 1 := constantI S_ 1 1#1
  let main_v7 : IVec S_ 1 := (fun x v => Host.reduce IntOp.andi x v reducesTo_S16x8192x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S16x256 : Shape := ⟨2, ![16, 256]⟩
abbrev S16x8192x256 : Shape := ⟨3, ![16, 8192, 256]⟩
abbrev S256x256 : Shape := ⟨2, ![256, 256]⟩
abbrev S256x1 : Shape := ⟨2, ![256, 1]⟩
abbrev S16x1x256 : Shape := ⟨3, ![16, 1, 256]⟩
abbrev S1x1x256 : Shape := ⟨3, ![1, 1, 256]⟩
abbrev S1x4096x256 : Shape := ⟨3, ![1, 4096, 256]⟩
abbrev S1x1 : Shape := ⟨2, ![1, 1]⟩
abbrev S1x256 : Shape := ⟨2, ![1, 256]⟩
abbrev S4096x256 : Shape := ⟨2, ![4096, 256]⟩
abbrev S4096x1 : Shape := ⟨2, ![4096, 1]⟩
abbrev S1 : Shape := ⟨1, ![1]⟩

abbrev nBuf : Space → Nat
  | .hbm => 9
  | .vmem => 11
  | .smem => 0
  | _ => 0

abbrev bufTy : (tb : Table) → Fin (tcTables nBuf tb) → BufTy
  | .hbm, ⟨0, _⟩ => ⟨S16x256, .f32⟩
  | .hbm, ⟨1, _⟩ => ⟨S16x8192x256, .f32⟩
  | .hbm, ⟨2, _⟩ => ⟨S256x256, .f32⟩
  | .hbm, ⟨3, _⟩ => ⟨S256x256, .f32⟩
  | .hbm, ⟨4, _⟩ => ⟨S256x1, .f32⟩
  | .hbm, ⟨5, _⟩ => ⟨S16x256, .f32⟩
  | .hbm, ⟨6, _⟩ => ⟨S16x1x256, .f32⟩
  | .hbm, ⟨7, _⟩ => ⟨S16x1x256, .f32⟩
  | .hbm, ⟨8, _⟩ => ⟨S16x256, .f32⟩
  | .local _ .vmem, ⟨0, _⟩ => ⟨S1x1x256, .f32⟩
  | .local _ .vmem, ⟨1, _⟩ => ⟨S1x1x256, .f32⟩
  | .local _ .vmem, ⟨2, _⟩ => ⟨S1x4096x256, .f32⟩
  | .local _ .vmem, ⟨3, _⟩ => ⟨S1x4096x256, .f32⟩
  | .local _ .vmem, ⟨4, _⟩ => ⟨S256x256, .f32⟩
  | .local _ .vmem, ⟨5, _⟩ => ⟨S256x1, .f32⟩
  | .local _ .vmem, ⟨6, _⟩ => ⟨S1x1x256, .f32⟩
  | .local _ .vmem, ⟨7, _⟩ => ⟨S1x1x256, .f32⟩
  | .local _ .vmem, ⟨8, _⟩ => ⟨S1x1, .f32⟩
  | .local _ .vmem, ⟨9, _⟩ => ⟨S1x1, .f32⟩
  | .local _ .vmem, ⟨10, _⟩ => ⟨S1x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v47 : BitVec 1 := Scalar.cmpi .eq arg1 c1_i32
  let v48 : BitVec 32 := Scalar.extui v47
  let c0_i32_26 : BitVec 32 := 0#32
  let v49 : BitVec 1 := Scalar.cmpi .ne v48 c0_i32_26
  v49

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16x256_S16x1x256 : S16x256.ShapeCasts S16x1x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  broadcasts_S1x256_S4096x256 : S1x256.Broadcasts S4096x256
  inb_S256x1_S256x1_0_0 : ∀ a, (![0, 0] : Fin 2 → Nat) a + S256x1.size a ≤ S256x1.size a
  h_S256x1 : 0 < S256x1.numel
  reduces_S4096x1_S1 : S4096x1.Reduces [0] S1
  shapeCasts_S1_S1x1 : S1.ShapeCasts S1x1
  broadcasts_S1x1_S4096x1 : S1x1.Broadcasts S4096x1
  broadcasts_S1x1_S1x256 : S1x1.Broadcasts S1x256
  shapeCasts_S1x256_S1x1x256 : S1x256.ShapeCasts S1x1x256
  shapeCasts_S16x1x256_S16x256 : S16x1x256.ShapeCasts S16x256
  dot_S16x256_S256x256_S16x256_1_0_0_1_n_n_wf : DotDims.WF S16x256 S256x256 S16x256 [1] [0] [0] [1] [] []
  dot_S4096x256_S256x256_S4096x256_1_0_0_1_n_n_wf : DotDims.WF S4096x256 S256x256 S4096x256 [1] [0] [0] [1] [] []
  dot_S4096x256_S256x1_S4096x1_1_0_0_1_n_n_wf : DotDims.WF S4096x256 S256x1 S4096x1 [1] [0] [0] [1] [] []
  dot_S4096x1_S4096x256_S1x256_0_0_1_1_n_n_wf : DotDims.WF S4096x1 S4096x256 S1x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256.size a ≤ S16x1x256.size a
  hwx0_0 : ∀ i : grid0.Coords, EltTy.bits .f32 = 32 ∨ (Rect.block (s := S16x1x256) S1x1x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x256.size a ≤ S16x8192x256.size a
  hwx0_1 : ∀ i : grid0.Coords, EltTy.bits .f32 = 32 ∨ (Rect.block (s := S16x8192x256) S1x4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S16x1x256.size a
  hwx0_4 : ∀ i : grid0.Coords, EltTy.bits .f32 = 32 ∨ (Rect.block (s := S16x1x256) S1x1x256.size (cc0_transform_4 i) (hinb0_4 i)).WholeWords (EltTy.packing .f32)

variable [Facts₀]

def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf
def dot_S4096x1_S4096x256_S1x256_0_0_1_1_n_n : DotDims S4096x1 S4096x256 S1x256 where
  lhsContracting := [0]
  rhsContracting := [0]
  lhsNonContracting := [1]
  rhsNonContracting := [1]
  lhsBatch := []
  rhsBatch := []
  wf := dot_S4096x1_S4096x256_S1x256_0_0_1_1_n_n_wf

abbrev win0_0 : Pipeline.Window sig grid0 :=
  Pipeline.Window.ofSpec (Memref.whole main_v1) S1x1x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16x256 : Shape := ⟨2, ![16, 256]⟩
abbrev S16x8192x256 : Shape := ⟨3, ![16, 8192, 256]⟩
abbrev S256x256 : Shape := ⟨2, ![256, 256]⟩
abbrev S256x1 : Shape := ⟨2, ![256, 1]⟩
abbrev S16x1x256 : Shape := ⟨3, ![16, 1, 256]⟩
abbrev S16x8192x1 : Shape := ⟨3, ![16, 8192, 1]⟩
abbrev S_ : Shape := ⟨0, ![]⟩
abbrev S16x1 : Shape := ⟨2, ![16, 1]⟩
abbrev S16x1x1 : Shape := ⟨3, ![16, 1, 1]⟩

abbrev nBuf : Space → Nat
  | .hbm => 30
  | .vmem => 0
  | .smem => 0
  | _ => 0

abbrev bufTy : (tb : Table) → Fin (tcTables nBuf tb) → BufTy
  | .hbm, ⟨0, _⟩ => ⟨S16x256, .f32⟩
  | .hbm, ⟨1, _⟩ => ⟨S16x8192x256, .f32⟩
  | .hbm, ⟨2, _⟩ => ⟨S256x256, .f32⟩
  | .hbm, ⟨3, _⟩ => ⟨S256x256, .f32⟩
  | .hbm, ⟨4, _⟩ => ⟨S256x1, .f32⟩
  | .hbm, ⟨5, _⟩ => ⟨S16x256, .f32⟩
  | .hbm, ⟨6, _⟩ => ⟨S16x1x256, .f32⟩
  | .hbm, ⟨7, _⟩ => ⟨S16x8192x256, .f32⟩
  | .hbm, ⟨8, _⟩ => ⟨S16x8192x256, .f32⟩
  | .hbm, ⟨9, _⟩ => ⟨S16x8192x256, .f32⟩
  | .hbm, ⟨10, _⟩ => ⟨S16x8192x256, .f32⟩
  | .hbm, ⟨11, _⟩ => ⟨S16x8192x1, .f32⟩
  | .hbm, ⟨12, _⟩ => ⟨S_, .f32⟩
  | .hbm, ⟨13, _⟩ => ⟨S16x1, .f32⟩
  | .hbm, ⟨14, _⟩ => ⟨S_, .f32⟩
  | .hbm, ⟨15, _⟩ => ⟨S16x1, .f32⟩
  | .hbm, ⟨16, _⟩ => ⟨S16x1, .f32⟩
  | .hbm, ⟨17, _⟩ => ⟨S16x1x1, .f32⟩
  | .hbm, ⟨18, _⟩ => ⟨S16x8192x1, .f32⟩
  | .hbm, ⟨19, _⟩ => ⟨S16x8192x1, .f32⟩
  | .hbm, ⟨20, _⟩ => ⟨S16x8192x1, .f32⟩
  | .hbm, ⟨21, _⟩ => ⟨S_, .f32⟩
  | .hbm, ⟨22, _⟩ => ⟨S16x1, .f32⟩
  | .hbm, ⟨23, _⟩ => ⟨S16x1x1, .f32⟩
  | .hbm, ⟨24, _⟩ => ⟨S16x8192x1, .f32⟩
  | .hbm, ⟨25, _⟩ => ⟨S16x8192x1, .f32⟩
  | .hbm, ⟨26, _⟩ => ⟨S16x8192x256, .f32⟩
  | .hbm, ⟨27, _⟩ => ⟨S16x8192x256, .f32⟩
  | .hbm, ⟨28, _⟩ => ⟨S_, .f32⟩
  | .hbm, ⟨29, _⟩ => ⟨S16x256, .f32⟩
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S16x256_S16x1x256_0_2 : S16x256.BroadcastsInDim S16x1x256 (![0, 2] : Fin 2 → Fin S16x1x256.rank)
  bcast_S16x1x256_S16x8192x256_0_1_2 : S16x1x256.BroadcastsInDim S16x8192x256 (![0, 1, 2] : Fin 3 → Fin S16x8192x256.rank)
  reducesTo_S16x8192x1_S16x1_d1 : S16x8192x1.ReducesTo [1] S16x1
  h_S_ : 0 < S_.numel
  bcast_S_S16x1 : S_.BroadcastsInDim S16x1 (![] : Fin 0 → Fin S16x1.rank)
  bcast_S16x1_S16x1x1_0_2 : S16x1.BroadcastsInDim S16x1x1 (![0, 2] : Fin 2 → Fin S16x1x1.rank)
  bcast_S16x1x1_S16x8192x1_0_1_2 : S16x1x1.BroadcastsInDim S16x8192x1 (![0, 1, 2] : Fin 3 → Fin S16x8192x1.rank)
  bcast_S16x8192x1_S16x8192x256_0_1_2 : S16x8192x1.BroadcastsInDim S16x8192x256 (![0, 1, 2] : Fin 3 → Fin S16x8192x256.rank)
  reducesTo_S16x8192x256_S16x256_d1 : S16x8192x256.ReducesTo [1] S16x256
  dot_S16x256_S256x256_S16x256_1_0_0_1_n_n_wf : DotDims.WF S16x256 S256x256 S16x256 [1] [0] [0] [1] [] []
  dot_S16x8192x256_S256x256_S16x8192x256_2_0_01_1_n_n_wf : DotDims.WF S16x8192x256 S256x256 S16x8192x256 [2] [0] [0, 1] [1] [] []
  dot_S16x8192x256_S256x1_S16x8192x1_2_0_01_1_n_n_wf : DotDims.WF S16x8192x256 S256x1 S16x8192x1 [2] [0] [0, 1] [1] [] []

variable [Facts₀]

def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf
def dot_S16x8192x256_S256x256_S16x8192x256_2_0_01_1_n_n : DotDims S16x8192x256 S256x256 S16x8192x256 where
  lhsContracting := [2]
  rhsContracting := [0]
  lhsNonContracting := [0, 1]
  rhsNonContracting := [1]
  lhsBatch := []
  rhsBatch := []
  wf := dot_S16x8192x256_S256x256_S16x8192x256_2_0_01_1_n_n_wf
def dot_S16x8192x256_S256x1_S16x8192x1_2_0_01_1_n_n : DotDims S16x8192x256 S256x1 S16x8192x1 where
  lhsContracting := [2]
  rhsContracting := [0]
  lhsNonContracting := [0, 1]
  rhsNonContracting := [1]
  lhsBatch := []
  rhsBatch := []
  wf := dot_S16x8192x256_S256x1_S16x8192x1_2_0_01_1_n_n_wf

class Facts : Prop extends Facts₀ where

variable [Facts]
-- ==== Proof.Finite.lean ====
/-
  Finiteness of the inputs out of the precondition.

  The precondition is one bit: the conjunction, over the five float arrays, of "every entry x has |x| < +∞", each
  array's test being a comparison of |x| against the broadcast pattern of +∞, folded by `and` from `true` over all
  axes. At the ideal instance an entry is an extended real and |x| is max x (-x). If the bit is 1 then every fold is
  1, so every comparison is 1, so max x (-x) < ⊤ at every entry; neither ⊤ (max ⊤ ⊥ = ⊤) nor ⊥ (max ⊥ ⊤ = ⊤)
  satisfies this, so every entry is the image of a real number.
-/
import proofs.«426070_j55954833932485_3_alg».proof.Pre_finite_inputs
import Idealize.ShloMosaic.Lib.ReduceAll
import Idealize.ShloMosaic.Lib.ValueIdx
import Idealize.ShloMosaic.PureOps.Ideal
import Mathlib.Data.EReal.Basic

namespace Cert.Finite

open Idealize.ShloMosaic

/-- The f32 pattern with all exponent bits set, sign and fraction clear, is +∞. -/
theorem ofBits_inf_f32 : Ideal.ofBits .f32 0x7F800000#32 = (⊤ : EReal) := by
  simp [Ideal.ofBits, Ideal.ieee]

/-- An extended real whose absolute value max x (-x) is below ⊤ is a real: at ⊥ and at ⊤ the maximum is ⊤. -/
theorem real_of_abs_lt_top (x : EReal) (h : max x (-x) < ⊤) : ∃ r : ℝ, x = (r : EReal) := by
  induction x using EReal.rec with
  | bot => simp at h
  | top => simp at h
  | coe r => exact ⟨r, rfl⟩

/-- One entry of one array: if the comparison |x| < +∞ came out 1 at index i, then x i is a real. -/
theorem real_of_cmp {S : Shape} (hb : Cert.Pre_finite_inputs.S_.BroadcastsInDim S (![] : Fin 0 → Fin S.rank))
    (x : FVec Ideal S .f32) (i : S.Idx)
    (h : cmpf .olt (Host.absf x)
        (broadcastInDim S ![] hb (constant Cert.Pre_finite_inputs.S_ .f32 0x7F800000#32)) i = 1#1) :
    ∃ r : ℝ, x i = (r : EReal) := by
  have h' : Ideal.cmp .olt (max (x i) (-(x i))) (Ideal.ofBits .f32 0x7F800000#32) = 1#1 := h
  rw [ofBits_inf_f32] at h'
  apply real_of_abs_lt_top
  by_contra hlt
  simp [Ideal.cmp, hlt] at h'

/-- The result shape has exactly one index. -/
instance : Subsingleton Cert.Pre_finite_inputs.S_.Idx := ⟨fun a b => funext fun d => d.elim0⟩

theorem real_of_pre [Cert.Pre_finite_inputs.Facts]
    (x0 : FVec Ideal Cert.Pre_finite_inputs.S16x256 .f32) (x1 : FVec Ideal Cert.Pre_finite_inputs.S16x8192x256 .f32)
    (x2 x3 : FVec Ideal Cert.Pre_finite_inputs.S256x256 .f32) (x4 : FVec Ideal Cert.Pre_finite_inputs.S256x1 .f32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  have h0 := congrFun h ValueIdx.ix0
  dsimp only [Cert.Pre_finite_inputs.fn, Cert.Pre_finite_inputs.fn_part1] at h0
  -- the five-fold conjunction, split from the outside in
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨fun i => real_of_cmp _ x0 i (Host.reduce_andi_all _ _ _ _ _ e0 i),
    fun i => real_of_cmp _ x1 i (Host.reduce_andi_all _ _ _ _ _ e1 i),
    fun i => real_of_cmp _ x2 i (Host.reduce_andi_all _ _ _ _ _ e2 i),
    fun i => real_of_cmp _ x3 i (Host.reduce_andi_all _ _ _ _ _ e3 i),
    fun i => real_of_cmp _ x4 i (Host.reduce_andi_all _ _ _ _ _ e4 i)⟩

end Cert.Finite
-- ==== Proof.Spec.lean ====
/-
  Additive attention over one row of keys, index by index over the extended reals: the function of the five
  argument arrays that both programs are shown to compute.

  For batch row `b`: the hidden projection `hid b u = ∑ₖ q[b,k] · W2[k,u]`, the keys
  `key b t u = ∑ₖ value[b,t,k] · W1[k,u]`, the score `score b t = ∑ᵤ tanh (key b t u + hid b u) · V[u,0]`, and the
  context vector: the softmax of the scores over the time axis `t`, normalised at their maximum, weighting the rows
  `value[b,t,·]` (`attend`).
-/
import Idealize.ShloMosaic.PureOps.Ideal
import Idealize.ShloMosaic.Lib.ValueIdx

noncomputable section

open scoped BigOperators

namespace Cert.Spec

open Idealize.ShloMosaic Idealize.ShloMosaic.ValueIdx

/-- The shapes of the arguments: query and result, value, the two square weights, the score column. -/
abbrev SQ : Shape := ⟨2, ![16, 256]⟩
abbrev SV : Shape := ⟨3, ![16, 8192, 256]⟩
abbrev SW : Shape := ⟨2, ![256, 256]⟩
abbrev SC : Shape := ⟨2, ![256, 1]⟩

/-- The hidden projection `query · W2` at `(b, u)`. -/
def hid (q : SQ.Idx → EReal) (w2 : SW.Idx → EReal) (b : Fin 16) (u : Fin 256) : EReal :=
  ∑ k : Fin 256, q (ix2 b k) * w2 (ix2 k u)

/-- The keys `value · W1` at `(b, t, u)`. -/
def key (v : SV.Idx → EReal) (w1 : SW.Idx → EReal) (b : Fin 16) (t : Fin 8192) (u : Fin 256) : EReal :=
  ∑ k : Fin 256, v (ix3 b t k) * w1 (ix2 k u)

/-- The score of time step `t` in batch row `b`: `tanh (key + hid)` against the column `V`. -/
def score (q : SQ.Idx → EReal) (v : SV.Idx → EReal) (w1 w2 : SW.Idx → EReal) (vc : SC.Idx → EReal)
    (b : Fin 16) (t : Fin 8192) : EReal :=
  ∑ u : Fin 256, Ideal.tanh (key v w1 b t u + hid q w2 b u) * vc (ix2 u (0 : Fin 1))

/-- The softmax of the scores `s` (normalised at their maximum from `⊥`) weighting the entries `x`. -/
def attend {N : ℕ} (s x : Fin N → EReal) : EReal :=
  ∑ t, Ideal.div (Ideal.exp (s t - Finset.univ.fold max ⊥ s))
      (∑ t', Ideal.exp (s t' - Finset.univ.fold max ⊥ s)) * x t

/-- The context vector at `(b, d)`. -/
def G (q : SQ.Idx → EReal) (v : SV.Idx → EReal) (w1 w2 : SW.Idx → EReal) (vc : SC.Idx → EReal) : SQ.Idx → EReal :=
  fun j => attend (score q v w1 w2 vc (j 0)) (fun t => v (ix3 (j 0) t (j 1)))

end Cert.Spec

end
-- ==== Proof.RefValue.lean ====
/-
  The reference's result array, read index by index: it is the context vector `Cert.Spec.G` of the arguments.
-/
import proofs.«426070_j55954833932485_3_alg».proof.Proof.Gen.ReferenceIdeal.Run
import proofs.«426070_j55954833932485_3_alg».proof.Proof.Gen.ReferenceIdeal.Read
import proofs.«426070_j55954833932485_3_alg».proof.Proof.Spec
import Idealize.ShloMosaic.PureOps.Ideal
import Idealize.ShloMosaic.PureOps.Ideal.Laws
import Idealize.ShloMosaic.PureOps.Reduce
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- The f32 pattern of minus infinity is the bottom of the extended reals. -/
theorem ofBits_neg_inf_f32 : Ideal.ofBits .f32 0xFF800000#32 = ⊥ := by simp [Ideal.ofBits, Ideal.ieee]

variable (x0 : (⟨S16x256, .f32⟩ : BufTy).Contents (Elt Ideal)) (x1 : (⟨S16x8192x256, .f32⟩ : BufTy).Contents (Elt Ideal))
  (x2 x3 : (⟨S256x256, .f32⟩ : BufTy).Contents (Elt Ideal)) (x4 : (⟨S256x1, .f32⟩ : BufTy).Contents (Elt Ideal))

/-! ### The keys, the hidden projection, the score -/

/-- The contraction index `k` on the last axis of the left operand of the keys' product. -/
theorem lidx2 (b : Fin 16) (t : Fin 8192) (u k : Fin 256) : lidx_main_v2 (ix3 b t u) k = ix3 b t k :=
  funext fun a => by match a with | ⟨0, _⟩ => rfl | ⟨1, _⟩ => rfl | ⟨2, _⟩ => rfl

/-- … and on the first axis of the weight. -/
theorem ridx2 (b : Fin 16) (t : Fin 8192) (u k : Fin 256) : ridx_main_v2 (ix3 b t u) k = ix2 k u :=
  funext fun a => by match a with | ⟨0, _⟩ => rfl | ⟨1, _⟩ => rfl

/-- The keys: `value · W1` at `(b, t, u)`. -/
theorem v2_eq_key (b : Fin 16) (t : Fin 8192) (u : Fin 256) :
    val_main_v2 (F := Ideal) x1 x2 (ix3 b t u) = Cert.Spec.key x1 x2 b t u := by
  rw [val_main_v2_apply]
  unfold Cert.Spec.key
  refine Finset.sum_congr rfl fun k _ => ?_
  rw [lidx2, ridx2]

/-- The hidden projection is broadcast over time: at `(b, t, u)` the two broadcasts read the product at `(b, u)`. -/
theorem lidx0 (b : Fin 16) (t : Fin 8192) (u k : Fin 256) :
    lidx_main_v0 (idx_main_v1 (idx_main_v3 (ix3 b t u))) k = ix2 b k :=
  funext fun a => by match a with | ⟨0, _⟩ => rfl | ⟨1, _⟩ => rfl

theorem ridx0 (b : Fin 16) (t : Fin 8192) (u k : Fin 256) :
    ridx_main_v0 (idx_main_v1 (idx_main_v3 (ix3 b t u))) k = ix2 k u :=
  funext fun a => by match a with | ⟨0, _⟩ => rfl | ⟨1, _⟩ => rfl

/-- The hidden projection `query · W2`, the same at every time step. -/
theorem v3_eq_hid (b : Fin 16) (t : Fin 8192) (u : Fin 256) :
    val_main_v3 (F := Ideal) x0 x3 (ix3 b t u) = Cert.Spec.hid x0 x3 b u := by
  rw [val_main_v3_apply, val_main_v1_apply, val_main_v0_apply]
  unfold Cert.Spec.hid
  refine Finset.sum_congr rfl fun k _ => ?_
  rw [lidx0, ridx0]

theorem lidx6 (b : Fin 16) (t : Fin 8192) (c : Fin 1) (u : Fin 256) : lidx_main_v6 (ix3 b t c) u = ix3 b t u :=
  funext fun a => by match a with | ⟨0, _⟩ => rfl | ⟨1, _⟩ => rfl | ⟨2, _⟩ => rfl

theorem ridx6 (b : Fin 16) (t : Fin 8192) (c : Fin 1) (u : Fin 256) : ridx_main_v6 (ix3 b t c) u = ix2 u (0 : Fin 1) :=
  funext fun a => by
    match a with
    | ⟨0, _⟩ => rfl
    | ⟨1, _⟩ => exact Fin.ext (show c.val = 0 by omega)

/-- The score of time step `t` in row `b`. -/
theorem v6_eq_score (b : Fin 16) (t : Fin 8192) (c : Fin 1) :
    val_main_v6 (F := Ideal) x0 x1 x2 x3 x4 (ix3 b t c) = Cert.Spec.score x0 x1 x2 x3 x4 b t := by
  rw [val_main_v6_apply]
  unfold Cert.Spec.score
  refine Finset.sum_congr rfl fun u _ => ?_
  rw [lidx6, ridx6, val_main_v5_apply, val_main_v4_apply, v2_eq_key, v3_eq_hid]
  rfl

/-! ### The row maximum -/

/-- The maximum's shape fact, in the form the inserted index is defined from. -/
theorem red1 : S16x8192x1.Reduces [1] S16x1 := by decide

/-- The index over `(b, c)` with the time coordinate `t` inserted. -/
theorem lift1 (b : Fin 16) (c : Fin 1) (t : Fin 8192) : red1.lift (ix2 b c) t = ix3 b t c :=
  funext fun a => Fin.ext (by match a with | ⟨0, _⟩ => rfl | ⟨1, _⟩ => rfl | ⟨2, _⟩ => rfl)

/-- The reduction over time with `maximum` from minus infinity: the fold of `max` from `⊥` over the row's scores. -/
theorem v7_eq_max (b : Fin 16) (c : Fin 1) :
    val_main_v7 (F := Ideal) x0 x1 x2 x3 x4 (ix2 b c)
      = Finset.univ.fold max ⊥ (Cert.Spec.score x0 x1 x2 x3 x4 b) := by
  unfold val_main_v7
  refine (Host.reduce_eq_fold_single (FloatOps.maximumf (F := Ideal) (φ := .f32)) (val_main_v6 (F := Ideal) x0 x1 x2 x3 x4)
    (val_main_cst (F := Ideal)) _ red1 h_S_ (ix2 b c)).trans ?_
  have e : (val_main_v6 (F := Ideal) x0 x1 x2 x3 x4) ∘ red1.lift (ix2 b c) = Cert.Spec.score x0 x1 x2 x3 x4 b :=
    funext fun t => (congrArg (val_main_v6 (F := Ideal) x0 x1 x2 x3 x4) (lift1 b c t)).trans (v6_eq_score x0 x1 x2 x3 x4 b t c)
  rw [e, val_main_cst_apply, Ideal.ofBits_def, ofBits_neg_inf_f32]
  rfl

/-- The further `maximum` with a broadcast minus infinity changes nothing: `max ⊥ x = x`. -/
theorem v9_eq_max (b : Fin 16) (c : Fin 1) :
    val_main_v9 (F := Ideal) x0 x1 x2 x3 x4 (ix2 b c)
      = Finset.univ.fold max ⊥ (Cert.Spec.score x0 x1 x2 x3 x4 b) := by
  rw [val_main_v9_apply, val_main_v8_apply, val_main_cst_0_apply, v7_eq_max, Ideal.ofBits_def, ofBits_neg_inf_f32,
    Ideal.maximumf_def]
  exact max_bot_left _

/-! ### The shifted exponentials, their sum, and the weighted sum over time -/

/-- The row maximum is broadcast over time: at `(b, t, c)` the two broadcasts read it at `(b, 0)`. -/
theorem idx10 (b : Fin 16) (t : Fin 8192) (c : Fin 1) : idx_main_v10 (idx_main_v11 (ix3 b t c)) = ix2 b (0 : Fin 1) :=
  funext fun a => by match a with | ⟨0, _⟩ => rfl | ⟨1, _⟩ => rfl

/-- The exponential of the score less the row maximum. -/
theorem v13_eq (b : Fin 16) (t : Fin 8192) (c : Fin 1) :
    val_main_v13 (F := Ideal) x0 x1 x2 x3 x4 (ix3 b t c)
      = Ideal.exp (Cert.Spec.score x0 x1 x2 x3 x4 b t - Finset.univ.fold max ⊥ (Cert.Spec.score x0 x1 x2 x3 x4 b)) := by
  rw [val_main_v13_apply, val_main_v12_apply, v6_eq_score, val_main_v11_apply, val_main_v10_apply, idx10, v9_eq_max]
  rfl

/-- The sum over time is broadcast back over time: at `(b, t, c)` its term `t'` is the exponential at `(b, t', 0)`. -/
theorem idx14 (b : Fin 16) (t : Fin 8192) (c : Fin 1) (t' : Fin 8192) :
    idx_main_v14 (idx_main_v15 (idx_main_v16 (ix3 b t c))) t' = ix3 b t' (0 : Fin 1) :=
  funext fun a => by match a with | ⟨0, _⟩ => rfl | ⟨1, _⟩ => rfl | ⟨2, _⟩ => rfl

/-- The normaliser: the sum of the shifted exponentials from zero, `0 + x = x`. -/
theorem v16_eq (b : Fin 16) (t : Fin 8192) (c : Fin 1) :
    val_main_v16 (F := Ideal) x0 x1 x2 x3 x4 (ix3 b t c)
      = ∑ t' : Fin 8192,
          Ideal.exp (Cert.Spec.score x0 x1 x2 x3 x4 b t' - Finset.univ.fold max ⊥ (Cert.Spec.score x0 x1 x2 x3 x4 b)) := by
  rw [val_main_v16_apply, val_main_v15_apply, val_main_v14_apply, val_main_cst_1_apply, Ideal.ofBits_def,
    Ideal.ofBits_zero_f32, zero_add]
  refine Finset.sum_congr rfl fun t' _ => ?_
  rw [idx14, v13_eq]

theorem idx20 (b : Fin 16) (d : Fin 256) (t : Fin 8192) : idx_main_v20 (ix2 b d) t = ix3 b t d :=
  funext fun a => by match a with | ⟨0, _⟩ => rfl | ⟨1, _⟩ => rfl | ⟨2, _⟩ => rfl

/-- The weight of time step `t` is broadcast over the feature axis. -/
theorem idx18 (b : Fin 16) (t : Fin 8192) (d : Fin 256) : idx_main_v18 (ix3 b t d) = ix3 b t (0 : Fin 1) :=
  funext fun a => by match a with | ⟨0, _⟩ => rfl | ⟨1, _⟩ => rfl | ⟨2, _⟩ => rfl

/-- The reference's result is the context vector: at `(b, d)` the sum over time, from zero, of the softmax weight of
    `t` times `value[b, t, d]`. -/
theorem val_eq_G (x0 : (⟨S16x256, .f32⟩ : BufTy).Contents (Elt Ideal)) (x1 : (⟨S16x8192x256, .f32⟩ : BufTy).Contents (Elt Ideal))
    (x2 x3 : (⟨S256x256, .f32⟩ : BufTy).Contents (Elt Ideal)) (x4 : (⟨S256x1, .f32⟩ : BufTy).Contents (Elt Ideal)) :
    Cert.ReferenceIdeal.Read.val_main_v20 (F := Ideal) x0 x1 x2 x3 x4 = Cert.Spec.G x0 x1 x2 x3 x4 := by
  funext j
  obtain ⟨b, d, rfl⟩ : ∃ (b : Fin 16) (d : Fin 256), j = ix2 b d := ⟨j 0, j 1, eq_ix2 j⟩
  show _ = Cert.Spec.attend (Cert.Spec.score x0 x1 x2 x3 x4 b) (fun t => x1 (ix3 b t d))
  rw [val_main_v20_apply, val_main_cst_2_apply, Ideal.ofBits_def, Ideal.ofBits_zero_f32, zero_add]
  unfold Cert.Spec.attend
  refine Finset.sum_congr rfl fun t _ => ?_
  rw [idx20, val_main_v19_apply, val_main_v18_apply, idx18, val_main_v17_apply, v13_eq, v16_eq]
  rfl

end Cert.ReferenceIdeal.RefValue

end
-- ==== Proof.KernelGrid.lean ====
/-
  The grid of the attention kernel.

  The kernel runs at 32 grid points; point `t` works on batch row `t / 2` and on time tile `t % 2`, that is on the
  time steps `(t % 2) · 4096 + tt` for `tt < 4096`.  Each window's block index at a point is decided here once over
  the 32 points: the hidden row and the output row sit at block `(t / 2, 0, 0)`, the value tile at
  `(t / 2, t % 2, 0)`, and the two weights are read whole at block `(0, 0)`.
-/
import proofs.«426070_j55954833932485_3_alg».proof.Proof.Gen.KernelIdeal.Launch

noncomputable section

namespace Cert.KernelIdeal.Grid

open Cert.KernelIdeal Cert.KernelIdeal.Gen Idealize.ShloMosaic

/-- The grid has 32 points. -/
theorem N32 : cfg0.N = 32 := N_0

/-- The batch row of grid point `t`. -/
def brow (t : Fin cfg0.N) : Fin 16 := ⟨t.val / 2, by have h : t.val < 32 := lt_of_lt_of_eq t.isLt N32; omega⟩

/-- The time step, on the whole time axis, of step `tt` of the tile of grid point `t`. -/
def trow (t : Fin cfg0.N) (tt : Fin 4096) : Fin 8192 :=
  ⟨(t.val % 2) * 4096 + tt.val, by have := tt.isLt; have := Nat.mod_lt t.val (show 0 < 2 by decide); omega⟩

theorem brow_val (t : Fin cfg0.N) : (brow t).val = t.val / 2 := rfl
theorem trow_val (t : Fin cfg0.N) (tt : Fin 4096) : (trow t tt).val = (t.val % 2) * 4096 + tt.val := rfl

/-- The hidden row's block index at point `t`. -/
theorem idx0 : ∀ t : Fin cfg0.N, win0_0.index t (0 : Fin 3) = t.val / 2 ∧ win0_0.index t (1 : Fin 3) = 0 ∧ win0_0.index t (2 : Fin 3) = 0 :=
  (by decide +kernel : ∀ t : Fin grid0.N, win0_0.index t (0 : Fin 3) = t.val / 2 ∧ win0_0.index t (1 : Fin 3) = 0 ∧ win0_0.index t (2 : Fin 3) = 0)

/-- The value tile's block index at point `t`. -/
theorem idx1 : ∀ t : Fin cfg0.N, win0_1.index t (0 : Fin 3) = t.val / 2 ∧ win0_1.index t (1 : Fin 3) = t.val % 2 ∧ win0_1.index t (2 : Fin 3) = 0 :=
  (by decide +kernel : ∀ t : Fin grid0.N, win0_1.index t (0 : Fin 3) = t.val / 2 ∧ win0_1.index t (1 : Fin 3) = t.val % 2 ∧ win0_1.index t (2 : Fin 3) = 0)

/-- The two weights are read whole. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- The output row's block index at point `t`. -/
theorem idx4 : ∀ t : Fin cfg0.N, win0_4.index t (0 : Fin 3) = t.val / 2 ∧ win0_4.index t (1 : Fin 3) = 0 ∧ win0_4.index t (2 : Fin 3) = 0 :=
  (by decide +kernel : ∀ t : Fin grid0.N, win0_4.index t (0 : Fin 3) = t.val / 2 ∧ win0_4.index t (1 : Fin 3) = 0 ∧ win0_4.index t (2 : Fin 3) = 0)

end Cert.KernelIdeal.Grid

end
-- ==== Proof.KernelArray.lean ====
/-
  From what the flushing points write back to the result of the program.

  The output window (16 × 1 × 256, one row per block) is written back at the odd grid points only, point `2b + 1`
  writing row `b`; these sixteen blocks tile the array.  So if every flushing point writes back the restriction of one
  function `GV` of the array's indices, the array ends holding `GV`.  The one host operation after the call reshapes the
  array to 16 × 256, which reads `GV` at `(b, 0, d)`; the argument arrays are never written.
-/
import proofs.«426070_j55954833932485_3_alg».proof.Proof.Gen.KernelIdeal.Frame
import proofs.«426070_j55954833932485_3_alg».proof.Proof.KernelGrid
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Arr

open Cert.KernelIdeal Cert.KernelIdeal.Gen Cert.KernelIdeal.Grid
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- The block of the output array that point `t` writes back, read at `(0, 0, d)`: row `t / 2` of the array. -/
theorem read_blk4 (c : Dev nD) (t : Fin cfg0.N) (GV : Buf (Elt F) ((c : Thread nD τ).loc main_v2)) (d : Fin 256) :
    (((cfg0.win 4).blk t).view.read (Elt F) GV : Vec F S1x1x256 .f32) (ix3 (0 : Fin 1) (0 : Fin 1) d)
      = GV (ix3 (brow t) (0 : Fin 1) d) := by
  rw [View.read_apply]
  show GV _ = GV _
  congr 1
  funext a
  apply Fin.ext
  match a with
  | ⟨0, _⟩ =>
    show win0_4.index t 0 * 1 + 1 * (0 : Nat) = t.val / 2
    rw [(idx4 t).1]; omega
  | ⟨1, _⟩ =>
    show win0_4.index t 1 * 1 + 1 * (0 : Nat) = 0
    rw [(idx4 t).2.1]
  | ⟨2, _⟩ =>
    show win0_4.index t 2 * 256 + 1 * d.val = d.val
    rw [(idx4 t).2.2]; omega

/-- The sixteen flushed blocks tile the output array: if each is the restriction of `GV`, the array ends at `GV`. -/
theorem final_of (c : Dev nD) (GV : Buf (Elt F) ((c : Thread nD τ).loc main_v2))
    (hfl : ∀ t : Fin cfg0.N, (cfg0.win 4).flush t = true →
      (dats m 0 c).flushed 4 t = ((cfg0.win 4).blk t).view.read (Elt F) GV) :
    (dats m 0 c).arrAt 4 cfg0.N = GV := by
  refine (dats m 0 c).arrAt_eq_of_cover 4 GV hfl fun i => ?_
  have h0 : (i 0 : Nat) < 16 := (i 0).isLt
  have h1 : (i 1 : Nat) < 1 := (i 1).isLt
  have h2 : (i 2 : Nat) < 256 := (i 2).isLt
  have hN : cfg0.N = 32 := N32
  refine ⟨⟨2 * (i 0 : Nat) + 1, by omega⟩, (flush0_4 _).mpr (by show (2 * (i 0 : Nat) + 1) % 2 = 1; omega), ?_⟩
  generalize ht : (⟨2 * (i 0 : Nat) + 1, by omega⟩ : Fin cfg0.N) = t
  have htv : t.val = 2 * (i 0 : Nat) + 1 := by rw [← ht]
  show i ∈ ((View.whole main_v2).slice (win0_4.rect t)).set
  rw [View.set_slice_whole, Rect.mem_set_unit]
  intro a
  match a with
  | ⟨0, _⟩ =>
    show win0_4.index t 0 * win0_4.size 0 ≤ (i 0 : Nat) ∧ (i 0 : Nat) < win0_4.index t 0 * win0_4.size 0 + win0_4.xsize (grid0.coords t) 0
    rw [(idx4 t).1, show win0_4.size (0 : Fin 3) = 1 from rfl, show win0_4.xsize (grid0.coords t) (0 : Fin 3) = 1 from rfl]
    omega
  | ⟨1, _⟩ =>
    show win0_4.index t 1 * win0_4.size 1 ≤ (i 1 : Nat) ∧ (i 1 : Nat) < win0_4.index t 1 * win0_4.size 1 + win0_4.xsize (grid0.coords t) 1
    rw [(idx4 t).2.1, show win0_4.size (1 : Fin 3) = 1 from rfl, show win0_4.xsize (grid0.coords t) (1 : Fin 3) = 1 from rfl]
    omega
  | ⟨2, _⟩ =>
    show win0_4.index t 2 * win0_4.size 2 ≤ (i 2 : Nat) ∧ (i 2 : Nat) < win0_4.index t 2 * win0_4.size 2 + win0_4.xsize (grid0.coords t) 2
    rw [(idx4 t).2.2, show win0_4.size (2 : Fin 3) = 256 from rfl, show win0_4.xsize (grid0.coords t) (2 : Fin 3) = 256 from rfl]
    omega

/-- An `[a, 1, b]` array cast to `[a, b]` reads, at `(i, j)`, the operand at `(i, 0, j)`: the two indices have the same
    row-major position. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- The result of the program as a whole: the output array, reshaped. -/
theorem tail_whole (c : Dev nD) (GV : Buf (Elt F) ((c : Thread nD τ).loc main_v2))
    (h : (dats m 0 c).arrAt 4 cfg0.N = GV) :
    Pipeline.afterTail₀ cfgs (dats m) 0 (V0 m) [hostOps1] c main_v3
      = shapeCast S16x256 (GV : Vec F S16x1x256 .f32) shapeCasts_S16x1x256_S16x256 := by
  unfold Pipeline.afterTail₀
  show StableHlo.after hostOps1 _ (Proc.devRef .tc main_v3) = _
  after_results
  have hw : Pipeline.withArrays (cfgs 0).spec c (V0 m c) (fun w => (dats m 0 c).arrAt w (cfgs 0).N)
      (Proc.devRef .tc main_v2) = GV :=
    (Pipeline.withArrays_arr spec0 launch0.win.arr_inj c _ _ 4).trans h
  rw [hw]
  rfl

/-- The reshape after the call reads the output array at `(b, 0, d)`. -/
theorem tail_of (c : Dev nD) (GV : Buf (Elt F) ((c : Thread nD τ).loc main_v2))
    (h : (dats m 0 c).arrAt 4 cfg0.N = GV) (b : Fin 16) (d : Fin 256) :
    Pipeline.afterTail₀ cfgs (dats m) 0 (V0 m) [hostOps1] c main_v3 (ix2 b d) = GV (ix3 b (0 : Fin 1) d) := by
  rw [tail_whole m c GV h]
  exact shapeCast_a1b_ab_apply (GV : Vec F S16x1x256 .f32) shapeCasts_S16x1x256_S16x256 b d

/-- The run of the program with its result named: if the reshaped output array is `R` on every core, every weakly
    fair execution ends with the result at `R` and the five arguments as launched. -/
theorem run_of (R : (c : Dev nD) → Buf (Elt F) ((c : Thread nD τ).loc main_v3))
    (hR : ∀ c, Pipeline.afterTail₀ cfgs (dats m) 0 (V0 m) [hostOps1] c main_v3 = R c) :
    θ_run defs (onTc (τ := τ) (main (F := F))) ⟨m, fun _ => 0, ρ⟩ (fun r => ∀ c : Dev nD,
      r.2.mem ((c.tc : Thread nD τ).loc main_v3) = R c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v3 (Pipeline.mem_restRefs_of main_v3 (by decide) (by decide))).trans (hR c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c)))⟩)
    (run_main m ρ)

end Cert.KernelIdeal.Arr

end
-- ==== Proof.KernelPoint.lean ====
/-
  The body's arithmetic read at an index, over the extended reals.

  The three matrix products of the body are plain sums over their one contraction index: the keys
  `value_tile · W1` (contracting the feature axis), the scores `tanh (…) · V` (contracting the unit axis) and the
  weighted rows `pᵀ · value_tile` (contracting the TIME axis of both operands).  With them each statistic the body
  stores is read at its one index: the tile's scores `tscore`, the new maximum, the rescaling factor
  `exp (m − m')`, the weights `exp (score − m')`, the new sum and the new accumulator, and the final quotient.
  Changes of float format are the identity on the extended reals, and the layout casts only rename indices.
-/
import proofs.«426070_j55954833932485_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Point

open Cert.KernelIdeal Cert.KernelIdeal.Gen Idealize.ShloMosaic Idealize.ShloMosaic.ValueIdx

/-! ## The three matrix products at an index -/

theorem lhs_keys_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl

theorem lhs_keys_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q

theorem rhs_keys_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q

theorem rhs_keys_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- The keys product: row `p` of the left operand against column `r` of the right. -/
theorem keys_mm_apply (A : FVec Ideal S4096x256 .bf16) (B : FVec Ideal S256x256 .bf16) (p : Fin 4096) (r : Fin 256) :
    matmul dot_S4096x256_S256x256_S4096x256_1_0_0_1_n_n none A B (constant S4096x256 .f32 0x00000000#32) (ix2 p r) = ∑ k : Fin 256, A (ix2 p k) * B (ix2 k r) := by
  simp only [matmul]
  rw [Ideal.matmul_constant_zero_apply, ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 p r) ((contrEquiv1 dot_S4096x256_S256x256_S4096x256_1_0_0_1_n_n 256 rfl rfl).symm k) = ix2 p k := funext fun a => Fin.ext (by
    match a with
    | ⟨0, _⟩ => exact lhs_keys_0 _ _
    | ⟨1, _⟩ => exact (lhs_keys_1 _ _).trans hk)
  have er : dot_S4096x256_S256x256_S4096x256_1_0_0_1_n_n.rhsIdx (ix2 p r) ((contrEquiv1 dot_S4096x256_S256x256_S4096x256_1_0_0_1_n_n 256 rfl rfl).symm k) = ix2 k r := funext fun a => Fin.ext (by
    match a with
    | ⟨0, _⟩ => exact (rhs_keys_0 _ _).trans hk
    | ⟨1, _⟩ => exact rhs_keys_1 _ _)
  rw [el, er]

theorem lhs_score_0 (i : S4096x1.Idx) (q : dot_S4096x256_S256x1_S4096x1_1_0_0_1_n_n.contr.Idx) :
    (dot_S4096x256_S256x1_S4096x1_1_0_0_1_n_n.lhsIdx i q 0).val = (i 0).val := by
  unfold DotDims.lhsIdx
  rw [dif_neg (show ¬(0 : Fin S4096x256.rank) ∈ dot_S4096x256_S256x1_S4096x1_1_0_0_1_n_n.lhsBatch by decide), dif_pos (show (0 : Fin S4096x256.rank) ∈ dot_S4096x256_S256x1_S4096x1_1_0_0_1_n_n.lhsNonContracting by decide)]
  rfl

theorem lhs_score_1 (i : S4096x1.Idx) (q : dot_S4096x256_S256x1_S4096x1_1_0_0_1_n_n.contr.Idx) :
    (dot_S4096x256_S256x1_S4096x1_1_0_0_1_n_n.lhsIdx i q 1).val = (q ⟨0, by decide⟩).val :=
  dot_S4096x256_S256x1_S4096x1_1_0_0_1_n_n.lhsIdx_val_of_single rfl i q

theorem rhs_score_0 (i : S4096x1.Idx) (q : dot_S4096x256_S256x1_S4096x1_1_0_0_1_n_n.contr.Idx) :
    (dot_S4096x256_S256x1_S4096x1_1_0_0_1_n_n.rhsIdx i q 0).val = (q ⟨0, by decide⟩).val :=
  dot_S4096x256_S256x1_S4096x1_1_0_0_1_n_n.rhsIdx_val_of_single rfl i q

theorem rhs_score_1 (i : S4096x1.Idx) (q : dot_S4096x256_S256x1_S4096x1_1_0_0_1_n_n.contr.Idx) :
    (dot_S4096x256_S256x1_S4096x1_1_0_0_1_n_n.rhsIdx i q 1).val = (i 1).val := by
  unfold DotDims.rhsIdx
  rw [dif_neg (show ¬(1 : Fin S256x1.rank) ∈ dot_S4096x256_S256x1_S4096x1_1_0_0_1_n_n.rhsBatch by decide), dif_pos (show (1 : Fin S256x1.rank) ∈ dot_S4096x256_S256x1_S4096x1_1_0_0_1_n_n.rhsNonContracting by decide)]
  rfl

/-- The score product: row `p` of the left operand against the one column of the right. -/
theorem score_mm_apply (A : FVec Ideal S4096x256 .bf16) (B : FVec Ideal S256x1 .bf16) (p : Fin 4096) (r : Fin 1) :
    matmul dot_S4096x256_S256x1_S4096x1_1_0_0_1_n_n none A B (constant S4096x1 .f32 0x00000000#32) (ix2 p r) = ∑ k : Fin 256, A (ix2 p k) * B (ix2 k r) := by
  simp only [matmul]
  rw [Ideal.matmul_constant_zero_apply, ← Equiv.sum_comp (contrEquiv1 dot_S4096x256_S256x1_S4096x1_1_0_0_1_n_n 256 rfl rfl).symm]
  refine Finset.sum_congr rfl fun k _ => ?_
  have hk := contrEquiv1_symm_val dot_S4096x256_S256x1_S4096x1_1_0_0_1_n_n 256 rfl rfl k
  have el : dot_S4096x256_S256x1_S4096x1_1_0_0_1_n_n.lhsIdx (ix2 p r) ((contrEquiv1 dot_S4096x256_S256x1_S4096x1_1_0_0_1_n_n 256 rfl rfl).symm k) = ix2 p k := funext fun a => Fin.ext (by
    match a with
    | ⟨0, _⟩ => exact lhs_score_0 _ _
    | ⟨1, _⟩ => exact (lhs_score_1 _ _).trans hk)
  have er : dot_S4096x256_S256x1_S4096x1_1_0_0_1_n_n.rhsIdx (ix2 p r) ((contrEquiv1 dot_S4096x256_S256x1_S4096x1_1_0_0_1_n_n 256 rfl rfl).symm k) = ix2 k r := funext fun a => Fin.ext (by
    match a with
    | ⟨0, _⟩ => exact (rhs_score_0 _ _).trans hk
    | ⟨1, _⟩ => exact rhs_score_1 _ _)
  rw [el, er]

theorem lhs_acc_0 (i : S1x256.Idx) (q : dot_S4096x1_S4096x256_S1x256_0_0_1_1_n_n.contr.Idx) :
    (dot_S4096x1_S4096x256_S1x256_0_0_1_1_n_n.lhsIdx i q 0).val = (q ⟨0, by decide⟩).val :=
  dot_S4096x1_S4096x256_S1x256_0_0_1_1_n_n.lhsIdx_val_of_single rfl i q

theorem lhs_acc_1 (i : S1x256.Idx) (q : dot_S4096x1_S4096x256_S1x256_0_0_1_1_n_n.contr.Idx) :
    (dot_S4096x1_S4096x256_S1x256_0_0_1_1_n_n.lhsIdx i q 1).val = (i 0).val := by
  unfold DotDims.lhsIdx
  rw [dif_neg (show ¬(1 : Fin S4096x1.rank) ∈ dot_S4096x1_S4096x256_S1x256_0_0_1_1_n_n.lhsBatch by decide), dif_pos (show (1 : Fin S4096x1.rank) ∈ dot_S4096x1_S4096x256_S1x256_0_0_1_1_n_n.lhsNonContracting by decide)]
  rfl

theorem rhs_acc_0 (i : S1x256.Idx) (q : dot_S4096x1_S4096x256_S1x256_0_0_1_1_n_n.contr.Idx) :
    (dot_S4096x1_S4096x256_S1x256_0_0_1_1_n_n.rhsIdx i q 0).val = (q ⟨0, by decide⟩).val :=
  dot_S4096x1_S4096x256_S1x256_0_0_1_1_n_n.rhsIdx_val_of_single rfl i q

theorem rhs_acc_1 (i : S1x256.Idx) (q : dot_S4096x1_S4096x256_S1x256_0_0_1_1_n_n.contr.Idx) :
    (dot_S4096x1_S4096x256_S1x256_0_0_1_1_n_n.rhsIdx i q 1).val = (i 1).val := by
  unfold DotDims.rhsIdx
  rw [dif_neg (show ¬(1 : Fin S4096x256.rank) ∈ dot_S4096x1_S4096x256_S1x256_0_0_1_1_n_n.rhsBatch by decide), dif_pos (show (1 : Fin S4096x256.rank) ∈ dot_S4096x1_S4096x256_S1x256_0_0_1_1_n_n.rhsNonContracting by decide)]
  rfl

/-- The weighted-rows product contracts the TIME axis of both operands: column `p` of the left against column `r` of the right. -/
theorem acc_mm_apply (A : FVec Ideal S4096x1 .bf16) (B : FVec Ideal S4096x256 .bf16) (p : Fin 1) (r : Fin 256) :
    matmul dot_S4096x1_S4096x256_S1x256_0_0_1_1_n_n none A B (constant S1x256 .f32 0x00000000#32) (ix2 p r) = ∑ k : Fin 4096, A (ix2 k p) * B (ix2 k r) := by
  simp only [matmul]
  rw [Ideal.matmul_constant_zero_apply, ← Equiv.sum_comp (contrEquiv1 dot_S4096x1_S4096x256_S1x256_0_0_1_1_n_n 4096 rfl rfl).symm]
  refine Finset.sum_congr rfl fun k _ => ?_
  have hk := contrEquiv1_symm_val dot_S4096x1_S4096x256_S1x256_0_0_1_1_n_n 4096 rfl rfl k
  have el : dot_S4096x1_S4096x256_S1x256_0_0_1_1_n_n.lhsIdx (ix2 p r) ((contrEquiv1 dot_S4096x1_S4096x256_S1x256_0_0_1_1_n_n 4096 rfl rfl).symm k) = ix2 k p := funext fun a => Fin.ext (by
    match a with
    | ⟨0, _⟩ => exact (lhs_acc_0 _ _).trans hk
    | ⟨1, _⟩ => exact lhs_acc_1 _ _)
  have er : dot_S4096x1_S4096x256_S1x256_0_0_1_1_n_n.rhsIdx (ix2 p r) ((contrEquiv1 dot_S4096x1_S4096x256_S1x256_0_0_1_1_n_n 4096 rfl rfl).symm k) = ix2 k r := funext fun a => Fin.ext (by
    match a with
    | ⟨0, _⟩ => exact (rhs_acc_0 _ _).trans hk
    | ⟨1, _⟩ => exact rhs_acc_1 _ _)
  rw [el, er]

/-! ## The tile's scores -/

section Payloads

variable (x0 : Vec Ideal S1x1x256 .f32) (x1 : Vec Ideal S1x4096x256 .f32) (x2 : Vec Ideal S256x256 .f32)
  (x3 : Vec Ideal S256x1 .f32)

/-- The tile's keys at `(t, u)`: row `t` of the value tile against column `u` of `W1`. -/
def tkey (t : Fin 4096) (u : Fin 256) : EReal := ∑ k : Fin 256, x1 (ix3 (0 : Fin 1) t k) * x2 (ix2 k u)

/-- The tile's score at `t`: `tanh (key + hidden)` against the column `V`. -/
def tscore (t : Fin 4096) : EReal :=
  ∑ u : Fin 256, Ideal.tanh (tkey x1 x2 t u + x0 (ix3 (0 : Fin 1) (0 : Fin 1) u)) * x3 (ix2 u (0 : Fin 1))

/-- `-∞` as an f32 pattern. -/
theorem ofBits_neg_inf_f32 : Ideal.ofBits .f32 0xFF800000#32 = (⊥ : EReal) := by
  simp [Ideal.ofBits, Ideal.ieee]

/-- The value tile with its unit axis dropped (and its format changed, which is the identity). -/
theorem pay7_apply (t : Fin 4096) (k : Fin 256) : k0_pay7 x1 (ix2 t k) = x1 (ix3 (0 : Fin 1) t k) := by
  unfold k0_pay7
  exact shapeCast_1ab_ab_apply x1 _ t k

/-- A one-entry vector broadcast along any shape reads its one entry. -/
theorem bcast11_apply {T : Shape} (v : FVec Ideal S1x1 .f32) (h : S1x1.Broadcasts T) (j : T.Idx) :
    broadcastTo T v h j = v (ix2 (0 : Fin 1) (0 : Fin 1)) :=
  broadcastTo_apply v h j (ix2 (0 : Fin 1) (0 : Fin 1)) fun a => by
    match a with
    | ⟨0, _⟩ => rfl
    | ⟨1, _⟩ => rfl

/-- The scores the body computes are `tscore`. -/
theorem pay8_apply (t : Fin 4096) (o : Fin 1) : k0_pay8 x0 x1 x2 x3 (ix2 t o) = tscore x0 x1 x2 x3 t := by
  obtain rfl : o = 0 := Subsingleton.elim _ _
  unfold k0_pay8
  (try dsimp only)
  rw [score_mm_apply]
  unfold tscore
  refine Finset.sum_congr rfl fun u _ => ?_
  show Ideal.tanh (matmul dot_S4096x256_S256x256_S4096x256_1_0_0_1_n_n none (k0_pay7 x1) (truncf .bf16 x2 bitsLt_bf16_f32) (constant S4096x256 .f32 0x00000000#32) (ix2 t u)
      + broadcastTo S4096x256 (shapeCast S1x256 x0 shapeCasts_S1x1x256_S1x256) broadcasts_S1x256_S4096x256 (ix2 t u)) * x3 (ix2 u 0) = _
  rw [keys_mm_apply, broadcastTo_1b_ab_apply, shapeCast_1ab_ab_apply]
  unfold tkey
  congr 2
  congr 1
  exact Finset.sum_congr rfl fun k _ => by rw [pay7_apply]; rfl

/-! ## The statistics at their indices -/

variable (m l : Vec Ideal S1x1 .f32) (acc : Vec Ideal S1x256 .f32)

/-- The tile's maximum from `-∞`. -/
def tmax : EReal := Finset.univ.fold max (Ideal.ofBits .f32 0xFF800000#32) (fun t : Fin 4096 => tscore x0 x1 x2 x3 t)

/-- The new maximum: the old one joined with the tile's. -/
theorem pay9_apply (a b : Fin 1) :
    k0_pay9 x0 x1 x2 x3 m (ix2 a b) = max (m (ix2 a b)) (tmax x0 x1 x2 x3) := by
  unfold k0_pay9
  (try dsimp only)
  show max (m (ix2 a b)) (shapeCast S1x1 (multiReduction .maximumf [0] S1 (k0_pay8 x0 x1 x2 x3) 0xFF800000#32 reduces_S4096x1_S1 (.inl rfl) rfl) shapeCasts_S1_S1x1 (ix2 a b)) = _
  rw [shapeCast_a_1a_apply]
  refine congrArg (max (m (ix2 a b))) ?_
  refine (Ideal.multiReduction_maximumf_single (k0_pay8 x0 x1 x2 x3) 0xFF800000#32 reduces_S4096x1_S1 (.inl rfl) rfl (ix1 b)).trans ?_
  unfold tmax
  show Finset.univ.fold max (Ideal.ofBits .f32 0xFF800000#32)
      (fun t : Fin 4096 => k0_pay8 x0 x1 x2 x3 (reduces_S4096x1_S1.lift (ix1 b) t)) = _
  refine congrArg (Finset.univ.fold max (Ideal.ofBits .f32 0xFF800000#32)) (funext fun t => ?_)
  have e : reduces_S4096x1_S1.lift (ix1 b) t = ix2 t b := funext fun a => Fin.ext (by
    match a with
    | ⟨0, _⟩ => rfl
    | ⟨1, _⟩ => rfl)
  rw [e, pay8_apply]

/-- The rescaling factor `exp (m − m')`. -/
theorem pay10_apply (a b : Fin 1) :
    k0_pay10 x0 x1 x2 x3 m (ix2 a b) = Ideal.exp (m (ix2 a b) - k0_pay9 x0 x1 x2 x3 m (ix2 a b)) := rfl

/-- The weights `exp (score − m')`. -/
theorem pay11_apply (t : Fin 4096) (o : Fin 1) :
    k0_pay11 x0 x1 x2 x3 m (ix2 t o)
      = Ideal.exp (tscore x0 x1 x2 x3 t - k0_pay9 x0 x1 x2 x3 m (ix2 (0 : Fin 1) (0 : Fin 1))) := by
  unfold k0_pay11
  (try dsimp only)
  show Ideal.exp (k0_pay8 x0 x1 x2 x3 (ix2 t o) - broadcastTo S4096x1 (k0_pay9 x0 x1 x2 x3 m) broadcasts_S1x1_S4096x1 (ix2 t o)) = _
  rw [pay8_apply, bcast11_apply]

/-- The new sum `exp (m − m') · l + ∑ exp (score − m')`. -/
theorem pay12_apply (a b : Fin 1) :
    k0_pay12 x0 x1 x2 x3 m l (ix2 a b)
      = k0_pay10 x0 x1 x2 x3 m (ix2 a b) * l (ix2 a b) + ∑ t : Fin 4096, k0_pay11 x0 x1 x2 x3 m (ix2 t b) := by
  unfold k0_pay12
  (try dsimp only)
  rw [shapeCast_self]
  show k0_pay10 x0 x1 x2 x3 m (ix2 a b) * l (ix2 a b)
      + shapeCast S1x1 (multiReduction .add [0] S1 (k0_pay11 x0 x1 x2 x3 m) 0x00000000#32 reduces_S4096x1_S1 (.inl rfl) rfl) shapeCasts_S1_S1x1 (ix2 a b) = _
  rw [shapeCast_a_1a_apply]
  refine congrArg (k0_pay10 x0 x1 x2 x3 m (ix2 a b) * l (ix2 a b) + ·) ?_
  refine (Ideal.multiReduction_add_single (k0_pay11 x0 x1 x2 x3 m) 0x00000000#32 reduces_S4096x1_S1 (.inl rfl) rfl (ix1 b)).trans ?_
  show ∑ t : Fin 4096, k0_pay11 x0 x1 x2 x3 m (reduces_S4096x1_S1.lift (ix1 b) t) = _
  refine Finset.sum_congr rfl fun t _ => ?_
  have e : reduces_S4096x1_S1.lift (ix1 b) t = ix2 t b := funext fun a => Fin.ext (by
    match a with
    | ⟨0, _⟩ => rfl
    | ⟨1, _⟩ => rfl)
  rw [e]

/-- The new accumulator `exp (m − m') · acc + ∑ₜ exp (scoreₜ − m') · valueₜ`, given the factor `a` and the weights `p`. -/
theorem pay1_apply (a : FVec Ideal S1x1 .f32) (p : FVec Ideal S4096x1 .f32) (o : Fin 1) (d : Fin 256) :
    k0_pay1 (k0_pay7 x1) a p acc (ix2 o d)
      = a (ix2 (0 : Fin 1) (0 : Fin 1)) * acc (ix2 o d) + ∑ t : Fin 4096, p (ix2 t o) * x1 (ix3 (0 : Fin 1) t d) := by
  unfold k0_pay1
  (try dsimp only)
  rw [shapeCast_self]
  show broadcastTo S1x256 a broadcasts_S1x1_S1x256 (ix2 o d) * acc (ix2 o d)
      + matmul dot_S4096x1_S4096x256_S1x256_0_0_1_1_n_n none (truncf .bf16 p bitsLt_bf16_f32) (k0_pay7 x1) (constant S1x256 .f32 0x00000000#32) (ix2 o d) = _
  rw [bcast11_apply, acc_mm_apply]
  congr 1
  exact Finset.sum_congr rfl fun t _ => by rw [pay7_apply]; rfl

/-- The stored quotient `acc / l`. -/
theorem pay3_apply (A : Vec Ideal S1x256 .f32) (L : Vec Ideal S1x1 .f32) (u o : Fin 1) (d : Fin 256) :
    k0_pay3 A L (ix3 u o d) = Ideal.div (A (ix2 o d)) (L (ix2 (0 : Fin 1) (0 : Fin 1))) := by
  unfold k0_pay3
  (try dsimp only)
  rw [shapeCast_ab_1ab_apply]
  show Ideal.div (A (ix2 o d)) (broadcastTo S1x256 L broadcasts_S1x1_S1x256 (ix2 o d)) = _
  rw [bcast11_apply]

/-- The stored maximum is the new maximum. -/
theorem pay2_eq (v : FVec Ideal S1x1 .f32) : k0_pay2 v = v := by
  unfold k0_pay2; exact shapeCast_self _ _

/-- The reset values: `-∞`, `0`, `0`. -/
theorem pay4_apply (j : S1x1.Idx) : k0_pay4 (F := Ideal) j = (⊥ : EReal) := by
  unfold k0_pay4; rw [shapeCast_self]; exact ofBits_neg_inf_f32
theorem pay5_apply (j : S1x1.Idx) : k0_pay5 (F := Ideal) j = (0 : EReal) := by
  unfold k0_pay5; rw [shapeCast_self]; exact Ideal.ofBits_zero_f32
theorem pay6_apply (j : S1x256.Idx) : k0_pay6 (F := Ideal) j = (0 : EReal) := by
  unfold k0_pay6; rw [shapeCast_self]; exact Ideal.ofBits_zero_f32

end Payloads

end Cert.KernelIdeal.Point

end
-- ==== Proof.KernelBlocks.lean ====
/-
  The four input blocks of a grid point, read at coordinates.

  At grid point `t` (batch row `t / 2`, time tile `t % 2`) the kernel is handed: the hidden row, block `(t / 2, 0, 0)`
  of the projection `query · W2` reshaped to 16 × 1 × 256 by the host before the call; the value tile, block
  `(t / 2, t % 2, 0)` of `value`; and the weights `W1` and `V` whole.  So the scores the body computes from its
  blocks at tile step `tt` are the scores of batch row `t / 2` at time step `(t % 2) · 4096 + tt`.
-/
import proofs.«426070_j55954833932485_3_alg».proof.Proof.Gen.KernelIdeal.Frame
import proofs.«426070_j55954833932485_3_alg».proof.Proof.KernelGrid
import proofs.«426070_j55954833932485_3_alg».proof.Proof.KernelPoint
import proofs.«426070_j55954833932485_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open scoped BigOperators

namespace Cert.KernelIdeal.Blocks

open Cert.KernelIdeal Cert.KernelIdeal.Gen Cert.KernelIdeal.Grid
open Idealize.ShloMosaic Idealize.ShloMosaic.TcCoe Idealize.ShloMosaic.ValueIdx Idealize.SL.Sem

variable (m : (ℓ : Loc nD τ sig) → Buf (Elt Ideal) ℓ)

/-- The five argument arrays on core `c`, as the run finds them at launch. -/
abbrev aq (c : Dev nD) : Cert.Spec.SQ.Idx → EReal := m ((c : Thread nD τ).loc main_arg0)
abbrev av (c : Dev nD) : Cert.Spec.SV.Idx → EReal := m ((c : Thread nD τ).loc main_arg1)
abbrev aw1 (c : Dev nD) : Cert.Spec.SW.Idx → EReal := m ((c : Thread nD τ).loc main_arg2)
abbrev aw2 (c : Dev nD) : Cert.Spec.SW.Idx → EReal := m ((c : Thread nD τ).loc main_arg3)
abbrev avc (c : Dev nD) : Cert.Spec.SC.Idx → EReal := m ((c : Thread nD τ).loc main_arg4)

/-- The four input blocks at point `t`, at their literal types. -/
abbrev hblk (c : Dev nD) (t : Fin cfg0.N) : Vec Ideal S1x1x256 .f32 := iblk m c 0 t
abbrev vblk (c : Dev nD) (t : Fin cfg0.N) : Vec Ideal S1x4096x256 .f32 := iblk m c 1 t
abbrev w1blk (c : Dev nD) (t : Fin cfg0.N) : Vec Ideal S256x256 .f32 := iblk m c 2 t
abbrev vcblk (c : Dev nD) (t : Fin cfg0.N) : Vec Ideal S256x1 .f32 := iblk m c 3 t

/-! ## The hidden row: the projection `query · W2`, reshaped, at its block -/

/-- A 16 × 256 array reshaped to 16 × 1 × 256 reads, at `(i, u, j)`, the operand at `(i, j)`. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

theorem lhs_hid_0 (i : S16x256.Idx) (q : dot_S16x256_S256x256_S16x256_1_0_0_1_n_n.contr.Idx) :
    (dot_S16x256_S256x256_S16x256_1_0_0_1_n_n.lhsIdx i q 0).val = (i 0).val := by
  unfold DotDims.lhsIdx
  rw [dif_neg (show ¬(0 : Fin S16x256.rank) ∈ dot_S16x256_S256x256_S16x256_1_0_0_1_n_n.lhsBatch by decide), dif_pos (show (0 : Fin S16x256.rank) ∈ dot_S16x256_S256x256_S16x256_1_0_0_1_n_n.lhsNonContracting by decide)]
  rfl

theorem lhs_hid_1 (i : S16x256.Idx) (q : dot_S16x256_S256x256_S16x256_1_0_0_1_n_n.contr.Idx) :
    (dot_S16x256_S256x256_S16x256_1_0_0_1_n_n.lhsIdx i q 1).val = (q ⟨0, by decide⟩).val :=
  dot_S16x256_S256x256_S16x256_1_0_0_1_n_n.lhsIdx_val_of_single rfl i q

theorem rhs_hid_0 (i : S16x256.Idx) (q : dot_S16x256_S256x256_S16x256_1_0_0_1_n_n.contr.Idx) :
    (dot_S16x256_S256x256_S16x256_1_0_0_1_n_n.rhsIdx i q 0).val = (q ⟨0, by decide⟩).val :=
  dot_S16x256_S256x256_S16x256_1_0_0_1_n_n.rhsIdx_val_of_single rfl i q

theorem rhs_hid_1 (i : S16x256.Idx) (q : dot_S16x256_S256x256_S16x256_1_0_0_1_n_n.contr.Idx) :
    (dot_S16x256_S256x256_S16x256_1_0_0_1_n_n.rhsIdx i q 1).val = (i 1).val := by
  unfold DotDims.rhsIdx
  rw [dif_neg (show ¬(1 : Fin S256x256.rank) ∈ dot_S16x256_S256x256_S16x256_1_0_0_1_n_n.rhsBatch by decide), dif_pos (show (1 : Fin S256x256.rank) ∈ dot_S16x256_S256x256_S16x256_1_0_0_1_n_n.rhsNonContracting by decide)]
  rfl

/-- The host's projection at `(b, u)` is the sum over the one contracted index. -/
theorem hid_dot_apply (A : FVec Ideal S16x256 .f32) (B : FVec Ideal S256x256 .f32) (b : Fin 16) (u : Fin 256) :
    Host.dotGeneral dot_S16x256_S256x256_S16x256_1_0_0_1_n_n none A B (ix2 b u)
      = ∑ k : Fin 256, A (ix2 b k) * B (ix2 k u) := by
  simp only [Host.dotGeneral]
  rw [Ideal.dotGeneral_apply, ← Equiv.sum_comp (contrEquiv1 dot_S16x256_S256x256_S16x256_1_0_0_1_n_n 256 rfl rfl).symm]
  refine Finset.sum_congr rfl fun k _ => ?_
  have hk := contrEquiv1_symm_val dot_S16x256_S256x256_S16x256_1_0_0_1_n_n 256 rfl rfl k
  have el : dot_S16x256_S256x256_S16x256_1_0_0_1_n_n.lhsIdx (ix2 b u) ((contrEquiv1 dot_S16x256_S256x256_S16x256_1_0_0_1_n_n 256 rfl rfl).symm k) = ix2 b k := funext fun a => Fin.ext (by
    match a with
    | ⟨0, _⟩ => exact lhs_hid_0 _ _
    | ⟨1, _⟩ => exact (lhs_hid_1 _ _).trans hk)
  have er : dot_S16x256_S256x256_S16x256_1_0_0_1_n_n.rhsIdx (ix2 b u) ((contrEquiv1 dot_S16x256_S256x256_S16x256_1_0_0_1_n_n 256 rfl rfl).symm k) = ix2 k u := funext fun a => Fin.ext (by
    match a with
    | ⟨0, _⟩ => exact (rhs_hid_0 _ _).trans hk
    | ⟨1, _⟩ => exact rhs_hid_1 _ _)
  rw [el, er]

/-- The hidden array as the call finds it: the host's projection, reshaped. -/
theorem V_main_v1 (c : Dev nD) :
    (V m c main_v1 : S16x1x256.Idx → EReal)
      = shapeCast S16x1x256 (Host.dotGeneral (F := Ideal) (φ₁ := .f32) (φ₂ := .f32) dot_S16x256_S256x256_S16x256_1_0_0_1_n_n none
          (m ((c : Thread nD τ).loc main_arg0)) (m ((c : Thread nD τ).loc main_arg3))) shapeCasts_S16x256_S16x1x256 := by
  show StableHlo.after hostOps0 (fun b => m (c, b)) (Proc.devRef .tc main_v1) = _
  after_results
  rfl

/-- The hidden block at `(0, 0, u)` is the hidden array at `(t / 2, 0, u)`. -/
theorem hblk_read (c : Dev nD) (t : Fin cfg0.N) (u : Fin 256) :
    hblk m c t (ix3 (0 : Fin 1) (0 : Fin 1) u) = (V m c main_v1 : S16x1x256.Idx → EReal) (ix3 (brow t) (0 : Fin 1) u) := by
  unfold hblk iblk
  rw [View.read_apply]
  show V m c main_v1 _ = V m c main_v1 _
  congr 1
  funext a
  apply Fin.ext
  match a with
  | ⟨0, _⟩ => show win0_0.index t 0 * 1 + 1 * 0 = t.val / 2; rw [(idx0 t).1]; omega
  | ⟨1, _⟩ => show win0_0.index t 1 * 1 + 1 * 0 = 0; rw [(idx0 t).2.1]
  | ⟨2, _⟩ => show win0_0.index t 2 * 256 + 1 * u.val = u.val; rw [(idx0 t).2.2]; omega

/-- The hidden block at `(0, 0, u)` is the hidden projection of batch row `t / 2` at unit `u`. -/
theorem hblk_apply (c : Dev nD) (t : Fin cfg0.N) (u : Fin 256) :
    hblk m c t (ix3 (0 : Fin 1) (0 : Fin 1) u) = Cert.Spec.hid (aq m c) (aw2 m c) (brow t) u := by
  rw [hblk_read, V_main_v1]
  refine (shapeCast_ab_a1b_apply _ shapeCasts_S16x256_S16x1x256 (brow t) (0 : Fin 1) u).trans ?_
  exact hid_dot_apply _ _ _ _

/-! ## The two weights, whole -/

/-- The first weight is handed over whole. -/
theorem w1blk_apply (c : Dev nD) (t : Fin cfg0.N) (k u : Fin 256) :
    w1blk m c t (ix2 k u) = aw1 m c (ix2 k u) := by
  unfold w1blk iblk
  rw [View.read_apply]
  show V m c main_arg2 _ = m ((c : Thread nD τ).loc main_arg2) _
  rw [V_main_arg2]
  congr 1
  funext a
  apply Fin.ext
  match a with
  | ⟨0, _⟩ => show win0_2.index t 0 * 256 + 1 * k.val = k.val; rw [(idx2 t).1]; omega
  | ⟨1, _⟩ => show win0_2.index t 1 * 256 + 1 * u.val = u.val; rw [(idx2 t).2]; omega

/-- The score column is handed over whole. -/
theorem vcblk_apply (c : Dev nD) (t : Fin cfg0.N) (u : Fin 256) (o : Fin 1) :
    vcblk m c t (ix2 u o) = avc m c (ix2 u o) := by
  unfold vcblk iblk
  rw [View.read_apply]
  show V m c main_arg4 _ = m ((c : Thread nD τ).loc main_arg4) _
  rw [V_main_arg4]
  congr 1
  funext a
  apply Fin.ext
  match a with
  | ⟨0, _⟩ => show win0_3.index t 0 * 256 + 1 * u.val = u.val; rw [(idx3 t).1]; omega
  | ⟨1, _⟩ => show win0_3.index t 1 * 1 + 1 * o.val = o.val; rw [(idx3 t).2]; omega

/-! ## The value tile and the tile's scores -/

/-- The value tile at `(0, tt, d)` is `value` at batch row `t / 2`, time step `(t % 2) · 4096 + tt`, feature `d`. -/
theorem vblk_apply (c : Dev nD) (t : Fin cfg0.N) (tt : Fin 4096) (d : Fin 256) :
    vblk m c t (ix3 (0 : Fin 1) tt d) = av m c (ix3 (brow t) (trow t tt) d) := by
  unfold vblk iblk
  rw [View.read_apply]
  show V m c main_arg1 _ = m ((c : Thread nD τ).loc main_arg1) _
  rw [V_main_arg1]
  congr 1
  funext a
  apply Fin.ext
  match a with
  | ⟨0, _⟩ => show win0_1.index t 0 * 1 + 1 * 0 = t.val / 2; rw [(idx1 t).1]; omega
  | ⟨1, _⟩ => show win0_1.index t 1 * 4096 + 1 * tt.val = (t.val % 2) * 4096 + tt.val; rw [(idx1 t).2.1]; omega
  | ⟨2, _⟩ => show win0_1.index t 2 * 256 + 1 * d.val = d.val; rw [(idx1 t).2.2]; omega

/-- The scores of the tile of point `t` are the scores of batch row `t / 2` at the tile's time steps. -/
theorem tscore_blocks (c : Dev nD) (t : Fin cfg0.N) (tt : Fin 4096) :
    Cert.KernelIdeal.Point.tscore (hblk m c t) (vblk m c t) (w1blk m c t) (vcblk m c t) tt
      = Cert.Spec.score (aq m c) (av m c) (aw1 m c) (aw2 m c) (avc m c) (brow t) (trow t tt) := by
  unfold Point.tscore Cert.Spec.score
  refine Finset.sum_congr rfl fun u _ => ?_
  rw [hblk_apply, vcblk_apply]
  congr 3
  unfold Point.tkey Cert.Spec.key
  refine Finset.sum_congr rfl fun k _ => ?_
  rw [vblk_apply, w1blk_apply]

end Cert.KernelIdeal.Blocks

end
-- ==== Proof.KernelPieces.lean ====
/-
  What one grid point of the attention kernel leaves behind, as values.

  The body keeps three running statistics of the online softmax in scratch memory: the maximum `m` (1×1), the sum
  `l` (1×1) and the weighted accumulator `acc` (1×256).  At the first time tile of a batch row it first resets them
  to `-∞`, `0`, `0`; at every tile it moves them to
  `m' = max m (max score)`, `l' = exp (m − m') · l + ∑ exp (score − m')`,
  `acc' = exp (m − m') · acc + (exp (score − m'))ᵀ · value`; at the last tile it also writes `acc' / l'` to the
  output block.  Each lemma says that what a case of the body leaves in a buffer is the corresponding arithmetic
  term of the blocks it loaded (and, in the later case, of what the tile before left).
-/
import proofs.«426070_j55954833932485_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The statistics a tile leaves, as functions of the four input blocks (hidden row, value tile, `W1`, `V`) and of
    the statistics `m`, `l`, `acc` it found. -/
abbrev newMax (x0 : Vec F S1x1x256 .f32) (x1 : Vec F S1x4096x256 .f32) (x2 : Vec F S256x256 .f32) (x3 : Vec F S256x1 .f32)
    (m : Vec F S1x1 .f32) : Vec F S1x1 .f32 := k0_pay2 (k0_pay9 x0 x1 x2 x3 m)
abbrev newSum (x0 : Vec F S1x1x256 .f32) (x1 : Vec F S1x4096x256 .f32) (x2 : Vec F S256x256 .f32) (x3 : Vec F S256x1 .f32)
    (m l : Vec F S1x1 .f32) : Vec F S1x1 .f32 := k0_pay12 x0 x1 x2 x3 m l
abbrev newAcc (x0 : Vec F S1x1x256 .f32) (x1 : Vec F S1x4096x256 .f32) (x2 : Vec F S256x256 .f32) (x3 : Vec F S256x1 .f32)
    (m : Vec F S1x1 .f32) (acc : Vec F S1x256 .f32) : Vec F S1x256 .f32 :=
  k0_pay1 (k0_pay7 x1) (k0_pay10 x0 x1 x2 x3 m) (k0_pay11 x0 x1 x2 x3 m) acc

/-! ## The first tile of a row: the statistics are reset, then moved -/

theorem sA_0 (c : Dev nD) (i : grid0.Coords) (arg2 : Memref sig .tc .vmem S1x1x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S256x1 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x256 .f32) (harg9 : arg9.IsWhole) (hc0 : cond0_0 i) (hc1 : ¬cond0_1 i)
    (x0 : Vec F S1x1x256 .f32) (x1 : Vec F S1x4096x256 .f32) (x2 : Vec F S256x256 .f32) (x3 : Vec F S256x1 .f32) :
    sout0_A_0 c i arg2 harg2 arg3 harg3 arg4 harg4 arg5 harg5 arg6 harg6 arg7 harg7 arg8 harg8 arg9 harg9 hc0 hc1 x0 x1 x2 x3
      = newMax x0 x1 x2 x3 (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1x1) hz2]
  simp only [View.readAt_eq_ld, harg2.read_unread, harg3.read_unread, harg4.read_unread, harg5.read_unread, harg6.read_unread, harg7.read_unread, harg8.read_unread, harg9.read_unread, View.ld_unit_zero (S := S1x1x256) hz3, View.ld_unit_zero (S := S1x4096x256) hz3, View.ld_unit_zero (S := S256x256) hz2, View.ld_unit_zero (S := S256x1) hz2, View.ld_unit_zero (S := S1x1) hz2, View.ld_unit_zero (S := S1x256) hz2, View.readCov_unit_zero (S := S1x1) _ hz2, View.readCov_unit_zero (S := S1x256) _ hz2]

theorem sA_1 (c : Dev nD) (i : grid0.Coords) (arg2 : Memref sig .tc .vmem S1x1x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S256x1 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x256 .f32) (harg9 : arg9.IsWhole) (hc0 : cond0_0 i) (hc1 : ¬cond0_1 i)
    (x0 : Vec F S1x1x256 .f32) (x1 : Vec F S1x4096x256 .f32) (x2 : Vec F S256x256 .f32) (x3 : Vec F S256x1 .f32) :
    sout0_A_1 c i arg2 harg2 arg3 harg3 arg4 harg4 arg5 harg5 arg6 harg6 arg7 harg7 arg8 harg8 arg9 harg9 hc0 hc1 x0 x1 x2 x3
      = newSum x0 x1 x2 x3 (k0_pay4 (F := F)) (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1x1) hz2]
  simp only [View.readAt_eq_ld, harg2.read_unread, harg3.read_unread, harg4.read_unread, harg5.read_unread, harg6.read_unread, harg7.read_unread, harg8.read_unread, harg9.read_unread, View.ld_unit_zero (S := S1x1x256) hz3, View.ld_unit_zero (S := S1x4096x256) hz3, View.ld_unit_zero (S := S256x256) hz2, View.ld_unit_zero (S := S256x1) hz2, View.ld_unit_zero (S := S1x1) hz2, View.ld_unit_zero (S := S1x256) hz2, View.readCov_unit_zero (S := S1x1) _ hz2, View.readCov_unit_zero (S := S1x256) _ hz2]

theorem sA_2 (c : Dev nD) (i : grid0.Coords) (arg2 : Memref sig .tc .vmem S1x1x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S256x1 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x256 .f32) (harg9 : arg9.IsWhole) (hc0 : cond0_0 i) (hc1 : ¬cond0_1 i)
    (x0 : Vec F S1x1x256 .f32) (x1 : Vec F S1x4096x256 .f32) (x2 : Vec F S256x256 .f32) (x3 : Vec F S256x1 .f32) :
    sout0_A_2 c i arg2 harg2 arg3 harg3 arg4 harg4 arg5 harg5 arg6 harg6 arg7 harg7 arg8 harg8 arg9 harg9 hc0 hc1 x0 x1 x2 x3
      = newAcc x0 x1 x2 x3 (k0_pay4 (F := F)) (k0_pay6 (F := F)) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1x256) hz2]
  simp only [View.readAt_eq_ld, harg2.read_unread, harg3.read_unread, harg4.read_unread, harg5.read_unread, harg6.read_unread, harg7.read_unread, harg8.read_unread, harg9.read_unread, View.ld_unit_zero (S := S1x1x256) hz3, View.ld_unit_zero (S := S1x4096x256) hz3, View.ld_unit_zero (S := S256x256) hz2, View.ld_unit_zero (S := S256x1) hz2, View.ld_unit_zero (S := S1x1) hz2, View.ld_unit_zero (S := S1x256) hz2, View.readCov_unit_zero (S := S1x1) _ hz2, View.readCov_unit_zero (S := S1x256) _ hz2]

/-! ## The last tile of a row: the statistics are moved from what the tile before left, and the quotient is stored -/

theorem sB_0 (c : Dev nD) (i : grid0.Coords) (arg2 : Memref sig .tc .vmem S1x1x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S256x1 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x256 .f32) (harg9 : arg9.IsWhole) (hc0 : ¬cond0_0 i) (hc1 : cond0_1 i)
    (x0 : Vec F S1x1x256 .f32) (x1 : Vec F S1x4096x256 .f32) (x2 : Vec F S256x256 .f32) (x3 : Vec F S256x1 .f32) (xs0 : Vec F S1x1 .f32) (xs1 : Vec F S1x1 .f32) (xs2 : Vec F S1x256 .f32) :
    sout0_B_0 c i arg2 harg2 arg3 harg3 arg4 harg4 arg5 harg5 arg6 harg6 arg7 harg7 arg8 harg8 arg9 harg9 hc0 hc1 x0 x1 x2 x3 xs0 xs1 xs2
      = newMax x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S1x1x256) hz3, View.ld_unit_zero (S := S1x4096x256) hz3, View.ld_unit_zero (S := S256x256) hz2, View.ld_unit_zero (S := S256x1) hz2, View.ld_unit_zero (S := S1x1) hz2, View.ld_unit_zero (S := S1x256) hz2, View.readCov_unit_zero (S := S1x1) _ hz2, View.readCov_unit_zero (S := S1x256) _ hz2]

theorem sB_1 (c : Dev nD) (i : grid0.Coords) (arg2 : Memref sig .tc .vmem S1x1x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S256x1 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x256 .f32) (harg9 : arg9.IsWhole) (hc0 : ¬cond0_0 i) (hc1 : cond0_1 i)
    (x0 : Vec F S1x1x256 .f32) (x1 : Vec F S1x4096x256 .f32) (x2 : Vec F S256x256 .f32) (x3 : Vec F S256x1 .f32) (xs0 : Vec F S1x1 .f32) (xs1 : Vec F S1x1 .f32) (xs2 : Vec F S1x256 .f32) :
    sout0_B_1 c i arg2 harg2 arg3 harg3 arg4 harg4 arg5 harg5 arg6 harg6 arg7 harg7 arg8 harg8 arg9 harg9 hc0 hc1 x0 x1 x2 x3 xs0 xs1 xs2
      = newSum x0 x1 x2 x3 xs0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S1x1x256) hz3, View.ld_unit_zero (S := S1x4096x256) hz3, View.ld_unit_zero (S := S256x256) hz2, View.ld_unit_zero (S := S256x1) hz2, View.ld_unit_zero (S := S1x1) hz2, View.ld_unit_zero (S := S1x256) hz2, View.readCov_unit_zero (S := S1x1) _ hz2, View.readCov_unit_zero (S := S1x256) _ hz2]

theorem sB_2 (c : Dev nD) (i : grid0.Coords) (arg2 : Memref sig .tc .vmem S1x1x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S256x1 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x256 .f32) (harg9 : arg9.IsWhole) (hc0 : ¬cond0_0 i) (hc1 : cond0_1 i)
    (x0 : Vec F S1x1x256 .f32) (x1 : Vec F S1x4096x256 .f32) (x2 : Vec F S256x256 .f32) (x3 : Vec F S256x1 .f32) (xs0 : Vec F S1x1 .f32) (xs1 : Vec F S1x1 .f32) (xs2 : Vec F S1x256 .f32) :
    sout0_B_2 c i arg2 harg2 arg3 harg3 arg4 harg4 arg5 harg5 arg6 harg6 arg7 harg7 arg8 harg8 arg9 harg9 hc0 hc1 x0 x1 x2 x3 xs0 xs1 xs2
      = newAcc x0 x1 x2 x3 xs0 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S1x1x256) hz3, View.ld_unit_zero (S := S1x4096x256) hz3, View.ld_unit_zero (S := S256x256) hz2, View.ld_unit_zero (S := S256x1) hz2, View.ld_unit_zero (S := S1x1) hz2, View.ld_unit_zero (S := S1x256) hz2, View.readCov_unit_zero (S := S1x1) _ hz2, View.readCov_unit_zero (S := S1x256) _ hz2]

theorem oB_4 (c : Dev nD) (i : grid0.Coords) (arg2 : Memref sig .tc .vmem S1x1x256 .f32) (harg2 : arg2.IsWhole) (arg3 : Memref sig .tc .vmem S1x4096x256 .f32) (harg3 : arg3.IsWhole) (arg4 : Memref sig .tc .vmem S256x256 .f32) (harg4 : arg4.IsWhole) (arg5 : Memref sig .tc .vmem S256x1 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x256 .f32) (harg9 : arg9.IsWhole) (hc0 : ¬cond0_0 i) (hc1 : cond0_1 i)
    (x0 : Vec F S1x1x256 .f32) (x1 : Vec F S1x4096x256 .f32) (x2 : Vec F S256x256 .f32) (x3 : Vec F S256x1 .f32) (xs0 : Vec F S1x1 .f32) (xs1 : Vec F S1x1 .f32) (xs2 : Vec F S1x256 .f32) :
    out0_B_4 c i arg2 harg2 arg3 harg3 arg4 harg4 arg5 harg5 arg6 harg6 arg7 harg7 arg8 harg8 arg9 harg9 hc0 hc1 x0 x1 x2 x3 xs0 xs1 xs2
      = k0_pay3 (newAcc x0 x1 x2 x3 xs0 xs2) (newSum x0 x1 x2 x3 xs0 xs1) := by
  unfold out0_B_4
  rw [View.read_writes_eq_canon _ _ _ (cover0_B_4 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, View.ld_unit_zero (S := S1x1x256) hz3, View.ld_unit_zero (S := S1x4096x256) hz3, View.ld_unit_zero (S := S256x256) hz2, View.ld_unit_zero (S := S256x1) hz2, View.ld_unit_zero (S := S1x1) hz2, View.ld_unit_zero (S := S1x256) hz2, View.readCov_unit_zero (S := S1x1) _ hz2, View.readCov_unit_zero (S := S1x256) _ hz2]

end Cert.KernelIdeal.Pieces

end
-- ==== Proof.LibOnlineSoftmax.lean ====
/-
  The online softmax: one pass over the tiles of a row keeps a running maximum `m` and a running sum
  `l = ∑ exp (x - m)` over the entries seen so far, rescaling the sum by `exp (m - m')` whenever the maximum moves
  to `m'`.

  Over the reals nothing depends on `m` being the maximum: `exp (m - m') * exp (x - m) = exp (x - m')`
  (`exp_shift_mul`), so the recurrence `l' = exp (m - m') * l + ∑_{tile} exp (x - m')` keeps the invariant
  `l = ∑_{seen} exp (x - m)` for ANY next value `m'` (`online_step_real`), and a softmax normalised at any shift is
  the softmax normalised at any other (`softmax_shift`); the sums are positive (`sum_exp_pos`).  What the running
  maximum buys is only that the numbers stay small, which is invisible here.

  The programs compute in the extended reals.  On FINITE entries (coerced reals) every operation involved returns
  a coerced real: the coercion commutes with finite sums (`coe_finset_sum`), with `max` and with the maximum of a
  nonempty family (`sup_coe`, `fold_max_bot_coe`), `exp` of a difference of reals is the real exponential
  (`ideal_exp_sub_coe`), and a quotient by a nonzero real is the real quotient (`ideal_div_coe`).  `online_step`
  is the induction step in the extended reals, stated so that "the valid entries of this tile" may be ANY finset
  `t` disjoint from the entries seen and the tile's sum ANY term proved equal to `∑_{t} exp (x - m')`;
  `online_init` starts it at a finite stand-in for `-∞` and the zero sum; `softmax_shift_ereal` is the conclusion:
  `exp (x - m) / l` with `l = ∑ exp (x - m)` is `exp (x - M) / ∑ exp (x - M)` for every real `M`, the true maximum
  among them.
-/
import Mathlib.Analysis.SpecialFunctions.Exp
import Mathlib.Data.EReal.Inv
import Idealize.ShloMosaic.PureOps.Ideal

open scoped BigOperators
open Finset

namespace Cert.LibOnlineSoftmax

open Idealize.ShloMosaic

variable {ι : Type*}

/-! ## Over the reals -/

/-- Rescaling an exponential from the shift `m` to the shift `m'`. -/
theorem exp_shift_mul (x m m' : ℝ) : Real.exp (m - m') * Real.exp (x - m) = Real.exp (x - m') := by
  rw [← Real.exp_add]; congr 1; ring

/-- **The step of the recurrence.**  If `l` is the sum of `exp (x - m)` over the entries `S` seen so far, and the
    tile brings the entries `t` (disjoint from `S`) with sum `s` of `exp (x - m')`, then
    `exp (m - m') * l + s` is the sum of `exp (x - m')` over `S ∪ t` — for any `m'`. -/
theorem online_step_real [DecidableEq ι] (x : ι → ℝ) (S t : Finset ι) (hd : Disjoint S t) (m m' l s : ℝ)
    (hl : l = ∑ p ∈ S, Real.exp (x p - m)) (hs : s = ∑ p ∈ t, Real.exp (x p - m')) :
    Real.exp (m - m') * l + s = ∑ p ∈ S ∪ t, Real.exp (x p - m') := by
  rw [hl, hs, Finset.mul_sum, Finset.sum_union hd]
  congr 1
  exact Finset.sum_congr rfl (fun p _ => exp_shift_mul (x p) m m')

/-- A sum of exponentials over a nonempty set is positive. -/
theorem sum_exp_pos (x : ι → ℝ) (s : Finset ι) (hs : s.Nonempty) (m : ℝ) :
    0 < ∑ q ∈ s, Real.exp (x q - m) :=
  Finset.sum_pos (fun q _ => Real.exp_pos _) hs

/-- **Shift invariance of the softmax**: normalising at `m` or at `M` gives the same quotient. -/
theorem softmax_shift (x : ι → ℝ) (s : Finset ι) (m M : ℝ) (p : ι) :
    Real.exp (x p - m) / ∑ q ∈ s, Real.exp (x q - m) = Real.exp (x p - M) / ∑ q ∈ s, Real.exp (x q - M) := by
  have h : ∀ q, Real.exp (x q - m) = Real.exp (M - m) * Real.exp (x q - M) := fun q =>
    (exp_shift_mul (x q) M m).symm
  rw [h p, Finset.sum_congr rfl (fun q _ => h q), ← Finset.mul_sum,
    mul_div_mul_left _ _ (Real.exp_pos (M - m)).ne']

/-! ## The coercion to the extended reals -/

/-- The coercion commutes with finite sums. -/
theorem coe_finset_sum (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- The coercion commutes with `max`. -/
theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- The maximum from `⊥` of a nonempty family of reals is the coercion of its real maximum. -/
theorem sup_coe (s : Finset ι) (hs : s.Nonempty) (f : ι → ℝ) :
    s.sup (fun i => (f i : EReal)) = ((s.sup' hs f : ℝ) : EReal) := by
  apply le_antisymm
  · exact Finset.sup_le (fun i hi => EReal.coe_le_coe_iff.mpr (Finset.le_sup' f hi))
  · obtain ⟨i, hi, h⟩ := Finset.exists_mem_eq_sup' hs f
    rw [h]; exact Finset.le_sup (f := fun i => (f i : EReal)) hi

/-- The same as a fold of `max` from `⊥`, the form a reduction over a set of lanes takes. -/
theorem fold_max_bot_coe (s : Finset ι) (hs : s.Nonempty) (f : ι → ℝ) :
    s.fold max ⊥ (fun i => (f i : EReal)) = ((s.sup' hs f : ℝ) : EReal) :=
  sup_coe s hs f

/-- So such a maximum is finite: it is SOME real. -/
theorem exists_fold_max_bot_coe (s : Finset ι) (hs : s.Nonempty) (f : ι → ℝ) :
    ∃ c : ℝ, s.fold max ⊥ (fun i => (f i : EReal)) = (c : EReal) :=
  ⟨_, fold_max_bot_coe s hs f⟩

/-- `exp` of a difference of reals, in the extended reals, is the real exponential. -/
theorem ideal_exp_sub_coe (a b : ℝ) : Ideal.exp ((a : EReal) - (b : EReal)) = ((Real.exp (a - b) : ℝ) : EReal) := by
  rw [← EReal.coe_sub, Ideal.exp_coe]

/-- A quotient by a nonzero real, in the extended reals, is the real quotient. -/
theorem ideal_div_coe (a b : ℝ) (hb : b ≠ 0) : Ideal.div (a : EReal) (b : EReal) = ((a / b : ℝ) : EReal) := by
  rw [Ideal.div_coe hb, ← EReal.coe_mul, mul_one_div]

/-- A sum of `exp (x - m)` in the extended reals is the coercion of the real sum. -/
theorem sum_ideal_exp_sub_coe (x : ι → ℝ) (s : Finset ι) (m : ℝ) :
    ∑ q ∈ s, Ideal.exp ((x q : EReal) - (m : EReal)) = ((∑ q ∈ s, Real.exp (x q - m) : ℝ) : EReal) := by
  rw [coe_finset_sum]; exact Finset.sum_congr rfl (fun q _ => ideal_exp_sub_coe (x q) m)

/-! ## The recurrence in the extended reals -/

/-- **The start**: a finite stand-in `NEG` for `-∞` as the maximum, zero as the sum, nothing seen. -/
theorem online_init (x : ι → ℝ) (NEG : ℝ) :
    ∃ mr : ℝ, ((NEG : ℝ) : EReal) = (mr : EReal) ∧ (0 : EReal) = ((∑ p ∈ (∅ : Finset ι), Real.exp (x p - mr) : ℝ) : EReal) :=
  ⟨NEG, rfl, by simp⟩

/-- **The step in the extended reals.**  `m`, `l` are the running maximum and sum before the tile, with the
    invariant: `m` is a real and `l` is the sum of `exp (x - m)` over the entries `S` seen.  The tile's maximum `c`
    is a real (whatever it is the maximum of), the new maximum is `max m c`, and the tile's sum `s` is the sum of
    `exp (x - max m c)` over the tile's valid entries `t`.  Then the invariant holds of `max m c`,
    `exp (m - max m c) * l + s` and `S ∪ t`. -/
theorem online_step [DecidableEq ι] (x : ι → ℝ) (S t : Finset ι) (hd : Disjoint S t) (m l c s : EReal)
    (hinv : ∃ mr : ℝ, m = (mr : EReal) ∧ l = ((∑ p ∈ S, Real.exp (x p - mr) : ℝ) : EReal))
    (hc : ∃ cr : ℝ, c = (cr : EReal))
    (hs : ∀ mr' : ℝ, max m c = (mr' : EReal) → s = ((∑ p ∈ t, Real.exp (x p - mr') : ℝ) : EReal)) :
    ∃ mr' : ℝ, max m c = (mr' : EReal) ∧
      Ideal.exp (m - max m c) * l + s = ((∑ p ∈ S ∪ t, Real.exp (x p - mr') : ℝ) : EReal) := by
  obtain ⟨mr, rfl, rfl⟩ := hinv
  obtain ⟨cr, rfl⟩ := hc
  have hm : max (mr : EReal) (cr : EReal) = ((max mr cr : ℝ) : EReal) := (coe_max mr cr).symm
  refine ⟨max mr cr, hm, ?_⟩
  rw [hs _ hm, hm, ideal_exp_sub_coe, ← EReal.coe_mul, ← EReal.coe_add,
    online_step_real x S t hd mr (max mr cr) _ _ rfl rfl]

/-- The running maximum never falls below its start: with `NEG ≤ m`, joining `NEG` to a tile's maximum (the masked
    lanes of an overhanging tile hold `NEG`) does not change the new maximum. -/
theorem max_max_of_le {α : Type*} [LinearOrder α] (m c NEG : α) (h : NEG ≤ m) : max m (max c NEG) = max m c := by
  rw [← max_assoc, max_comm m c, max_assoc, max_eq_left h]

/-! ## The conclusion -/

/-- **The softmax from the statistics.**  With `l = ∑ exp (x - m)` over a nonempty set at ANY real shift `m`,
    `exp (x p - m) / l` in the extended reals is `exp (x p - M) / ∑ exp (x - M)` at any other real shift `M`. -/
theorem softmax_shift_ereal (x : ι → ℝ) (s : Finset ι) (hs : s.Nonempty) (m M : ℝ) (p : ι) :
    Ideal.div (Ideal.exp ((x p : EReal) - (m : EReal))) ((∑ q ∈ s, Real.exp (x q - m) : ℝ) : EReal)
      = Ideal.div (Ideal.exp ((x p : EReal) - (M : EReal))) (∑ q ∈ s, Ideal.exp ((x q : EReal) - (M : EReal))) := by
  rw [sum_ideal_exp_sub_coe, ideal_exp_sub_coe, ideal_exp_sub_coe,
    ideal_div_coe _ _ (sum_exp_pos x s hs m).ne', ideal_div_coe _ _ (sum_exp_pos x s hs M).ne',
    softmax_shift x s m M p]

/-- The same with the reference's shift spelled as it computes it: the maximum from `⊥` of the (finite) entries. -/
theorem softmax_shift_sup (x : ι → ℝ) (s : Finset ι) (hs : s.Nonempty) (m : ℝ) (p : ι) :
    Ideal.div (Ideal.exp ((x p : EReal) - (m : EReal))) ((∑ q ∈ s, Real.exp (x q - m) : ℝ) : EReal)
      = Ideal.div (Ideal.exp ((x p : EReal) - s.sup (fun q => (x q : EReal))))
          (∑ q ∈ s, Ideal.exp ((x q : EReal) - s.sup (fun q => (x q : EReal)))) := by
  rw [sup_coe s hs x]; exact softmax_shift_ereal x s hs m _ p

end Cert.LibOnlineSoftmax
-- ==== Proof.TwoTile.lean ====
/-
  Two steps of the online softmax with a weighted accumulator.

  The time axis `Fin N` is read in two tiles of `n` steps, `lo` and `hi` (all that is asked of them is that a sum over
  `Fin N` is the sum over the first tile plus the sum over the second).  The first tile starts from the maximum `⊥`,
  the sum `0` and the accumulator `0`; each tile moves the maximum to `M' = max M c` (`c` the tile's maximum from `⊥`),
  rescales sum and accumulator by `exp (M - M')` and adds the tile's `∑ exp (s - M')` and `∑ exp (s - M') · x`.

  Over the reals, `exp (M₀ - M₁) · exp (s - M₀) = exp (s - M₁)`, so after the second tile the sum is
  `∑ₜ exp (sₜ - M₁)` and the accumulator `∑ₜ exp (sₜ - M₁) · xₜ` over the whole axis; their quotient is
  `∑ₜ (exp (sₜ - M₁) / ∑ exp (s - M₁)) · xₜ` because the sum is positive, and a softmax does not depend on the shift
  it is normalised at.  In the extended reals every term involved is a coerced real once the scores and the weighted
  entries are: the tile maxima are maxima of nonempty finite families, `exp (⊥ - M₀) = 0` kills the start values, and
  the quotient by a positive real is the real quotient.
-/
import proofs.«426070_j55954833932485_3_alg».proof.Proof.LibOnlineSoftmax
import proofs.«426070_j55954833932485_3_alg».proof.Proof.Spec

noncomputable section

open scoped BigOperators
open Finset

namespace Cert.TwoTile

open Idealize.ShloMosaic Cert.LibOnlineSoftmax

variable {N n : ℕ}

/-- **Over the reals**: the rescaled two-tile accumulator over the rescaled two-tile sum is the softmax-weighted sum
    over the whole axis, normalised at any shift `M`; the shifts `m0`, `m1` of the two tiles are arbitrary. -/
theorem real_two_tile (lo hi : Fin n → Fin N)
    (hsplit : ∀ f : Fin N → ℝ, ∑ t, f t = (∑ t, f (lo t)) + ∑ t, f (hi t))
    (s x : Fin N → ℝ) (m0 m1 M : ℝ) :
    (Real.exp (m0 - m1) * (∑ t, Real.exp (s (lo t) - m0) * x (lo t)) + ∑ t, Real.exp (s (hi t) - m1) * x (hi t))
        / (Real.exp (m0 - m1) * (∑ t, Real.exp (s (lo t) - m0)) + ∑ t, Real.exp (s (hi t) - m1))
      = ∑ t, Real.exp (s t - M) / (∑ t', Real.exp (s t' - M)) * x t := by
  have hA : Real.exp (m0 - m1) * (∑ t, Real.exp (s (lo t) - m0) * x (lo t)) + ∑ t, Real.exp (s (hi t) - m1) * x (hi t)
      = ∑ t, Real.exp (s t - m1) * x t := by
    rw [hsplit (fun t => Real.exp (s t - m1) * x t), Finset.mul_sum]
    congr 1
    refine Finset.sum_congr rfl (fun t _ => ?_)
    rw [← mul_assoc, exp_shift_mul]
  have hL : Real.exp (m0 - m1) * (∑ t, Real.exp (s (lo t) - m0)) + ∑ t, Real.exp (s (hi t) - m1)
      = ∑ t, Real.exp (s t - m1) := by
    rw [hsplit (fun t => Real.exp (s t - m1)), Finset.mul_sum]
    congr 1
    exact Finset.sum_congr rfl (fun t _ => exp_shift_mul _ _ _)
  rw [hA, hL, Finset.sum_div]
  refine Finset.sum_congr rfl (fun t _ => ?_)
  rw [mul_div_right_comm]
  congr 1
  exact softmax_shift s Finset.univ m1 M t

/-- A sum of `exp (s - m) · x` in the extended reals is the coercion of the real sum. -/
theorem sum_exp_mul_coe {ι : Type*} (s x : ι → ℝ) (S : Finset ι) (m : ℝ) :
    ∑ q ∈ S, Ideal.exp ((s q : EReal) - (m : EReal)) * (x q : EReal)
      = ((∑ q ∈ S, Real.exp (s q - m) * x q : ℝ) : EReal) := by
  rw [coe_finset_sum]
  exact Finset.sum_congr rfl (fun q _ => by rw [ideal_exp_sub_coe, ← EReal.coe_mul])

/-- **In the extended reals.**  `M0, L0, A0` are the statistics after the first tile (from `⊥`, `0`, `0`) and
    `M1, L1, A1` after the second, each given by its equation; the scores `s` and the weighted entries `x` are
    reals.  Then `A1 / L1` is the softmax of the scores over the whole axis weighting the entries. -/
theorem two_tile (hn : 0 < n) (lo hi : Fin n → Fin N)
    (hsplit : ∀ f : Fin N → ℝ, ∑ t, f t = (∑ t, f (lo t)) + ∑ t, f (hi t))
    (s x : Fin N → ℝ) (M0 L0 A0 M1 L1 A1 : EReal)
    (hM0 : M0 = max ⊥ (Finset.univ.fold max ⊥ (fun t => (s (lo t) : EReal))))
    (hL0 : L0 = Ideal.exp (⊥ - M0) * 0 + ∑ t, Ideal.exp ((s (lo t) : EReal) - M0))
    (hA0 : A0 = Ideal.exp (⊥ - M0) * 0 + ∑ t, Ideal.exp ((s (lo t) : EReal) - M0) * (x (lo t) : EReal))
    (hM1 : M1 = max M0 (Finset.univ.fold max ⊥ (fun t => (s (hi t) : EReal))))
    (hL1 : L1 = Ideal.exp (M0 - M1) * L0 + ∑ t, Ideal.exp ((s (hi t) : EReal) - M1))
    (hA1 : A1 = Ideal.exp (M0 - M1) * A0 + ∑ t, Ideal.exp ((s (hi t) : EReal) - M1) * (x (hi t) : EReal)) :
    Ideal.div A1 L1 = Cert.Spec.attend (fun t => (s t : EReal)) (fun t => (x t : EReal)) := by
  have hne : (Finset.univ : Finset (Fin n)).Nonempty := ⟨⟨0, hn⟩, Finset.mem_univ _⟩
  have hNe : (Finset.univ : Finset (Fin N)).Nonempty := ⟨lo ⟨0, hn⟩, Finset.mem_univ _⟩
  -- the first tile
  obtain ⟨c0, hc0⟩ := exists_fold_max_bot_coe Finset.univ hne (fun t => s (lo t))
  have e0 : M0 = (c0 : EReal) := by rw [hM0, hc0]; exact max_eq_right bot_le
  have hb : Ideal.exp (⊥ - (c0 : EReal)) = 0 := by rw [EReal.bot_sub]; rfl
  have eL0 : L0 = ((∑ t, Real.exp (s (lo t) - c0) : ℝ) : EReal) := by
    rw [hL0, e0, hb, zero_mul, zero_add]
    exact sum_ideal_exp_sub_coe (fun t => s (lo t)) Finset.univ c0
  have eA0 : A0 = ((∑ t, Real.exp (s (lo t) - c0) * x (lo t) : ℝ) : EReal) := by
    rw [hA0, e0, hb, zero_mul, zero_add]
    exact sum_exp_mul_coe (fun t => s (lo t)) (fun t => x (lo t)) Finset.univ c0
  -- the second tile
  obtain ⟨c1, hc1⟩ := exists_fold_max_bot_coe Finset.univ hne (fun t => s (hi t))
  have e1 : M1 = ((max c0 c1 : ℝ) : EReal) := by rw [hM1, e0, hc1, coe_max]
  have eL1 : L1 = ((Real.exp (c0 - max c0 c1) * (∑ t, Real.exp (s (lo t) - c0))
      + ∑ t, Real.exp (s (hi t) - max c0 c1) : ℝ) : EReal) := by
    rw [hL1, e0, e1, eL0, ideal_exp_sub_coe, ← EReal.coe_mul,
      sum_ideal_exp_sub_coe (fun t => s (hi t)) Finset.univ (max c0 c1), ← EReal.coe_add]
  have eA1 : A1 = ((Real.exp (c0 - max c0 c1) * (∑ t, Real.exp (s (lo t) - c0) * x (lo t))
      + ∑ t, Real.exp (s (hi t) - max c0 c1) * x (hi t) : ℝ) : EReal) := by
    rw [hA1, e0, e1, eA0, ideal_exp_sub_coe, ← EReal.coe_mul,
      sum_exp_mul_coe (fun t => s (hi t)) (fun t => x (hi t)) Finset.univ (max c0 c1), ← EReal.coe_add]
  -- the whole axis
  have hLpos : Real.exp (c0 - max c0 c1) * (∑ t, Real.exp (s (lo t) - c0)) + ∑ t, Real.exp (s (hi t) - max c0 c1) ≠ 0 := by
    have h1 : 0 ≤ Real.exp (c0 - max c0 c1) * (∑ t, Real.exp (s (lo t) - c0)) :=
      mul_nonneg (Real.exp_pos _).le (Finset.sum_nonneg fun t _ => (Real.exp_pos _).le)
    have h2 : 0 < ∑ t, Real.exp (s (hi t) - max c0 c1) := sum_exp_pos (fun t => s (hi t)) Finset.univ hne _
    exact (add_pos_of_nonneg_of_pos h1 h2).ne'
  obtain ⟨Mr, hMr⟩ := exists_fold_max_bot_coe Finset.univ hNe s
  rw [eA1, eL1, ideal_div_coe _ _ hLpos, real_two_tile lo hi hsplit s x c0 (max c0 c1) Mr]
  unfold Cert.Spec.attend
  rw [hMr, coe_finset_sum]
  refine Finset.sum_congr rfl (fun t _ => ?_)
  rw [sum_ideal_exp_sub_coe s Finset.univ Mr, ideal_exp_sub_coe,
    ideal_div_coe _ _ (sum_exp_pos s Finset.univ hNe Mr).ne', ← EReal.coe_mul]

end Cert.TwoTile

end
-- ==== Proof.KernelStats.lean ====
/-
  Two tiles of one batch row, as arithmetic of the blocks.

  What a tile leaves in the three statistics, read at their one index: the new maximum is the old one joined with
  the tile's largest score; the new sum is `exp (m − m') · l + ∑ₜ exp (scoreₜ − m')`; the new accumulator at feature
  `d` is `exp (m − m') · acc_d + ∑ₜ exp (scoreₜ − m') · value_{t,d}`.  Started from `−∞`, `0`, `0` and run over the two
  tiles of a row — the time steps `tt` and `4096 + tt` — the quotient of the last accumulator by the last sum is the
  softmax of the row's 8192 scores weighting the row's entries at feature `d`, as soon as scores and entries are reals:
  these are exactly the equations of the two-tile recurrence.
-/
import proofs.«426070_j55954833932485_3_alg».proof.Proof.KernelPieces
import proofs.«426070_j55954833932485_3_alg».proof.Proof.KernelPoint
import proofs.«426070_j55954833932485_3_alg».proof.Proof.TwoTile

noncomputable section

open scoped BigOperators

namespace Cert.KernelIdeal.Stats

open Cert.KernelIdeal Cert.KernelIdeal.Gen Cert.KernelIdeal.Pieces Cert.KernelIdeal.Point
open Idealize.ShloMosaic Idealize.ShloMosaic.ValueIdx

/-! ## The time axis in two tiles -/

/-- Step `tt` of the first tile, on the whole axis. -/
def lo (tt : Fin 4096) : Fin 8192 := ⟨tt.val, by have := tt.isLt; omega⟩
/-- Step `tt` of the second tile, on the whole axis. -/
def hi (tt : Fin 4096) : Fin 8192 := ⟨4096 + tt.val, by have := tt.isLt; omega⟩

/-- A sum over the whole axis is the sum over the first tile plus the sum over the second. -/
theorem split (f : Fin 8192 → ℝ) : ∑ t, f t = (∑ t, f (lo t)) + ∑ t, f (hi t) :=
  Fin.sum_univ_add (a := 4096) (b := 4096) f

/-! ## The statistics a tile leaves, at their index -/

section Tile

variable (x0 : Vec Ideal S1x1x256 .f32) (x1 : Vec Ideal S1x4096x256 .f32) (x2 : Vec Ideal S256x256 .f32)
  (x3 : Vec Ideal S256x1 .f32) (μ l : Vec Ideal S1x1 .f32) (acc : Vec Ideal S1x256 .f32)

/-- The new maximum: the old one joined with the tile's largest score. -/
theorem newMax_apply :
    newMax x0 x1 x2 x3 μ (ix2 (0 : Fin 1) (0 : Fin 1)) = max (μ (ix2 (0 : Fin 1) (0 : Fin 1))) (tmax x0 x1 x2 x3) := by
  show k0_pay2 (k0_pay9 x0 x1 x2 x3 μ) (ix2 (0 : Fin 1) (0 : Fin 1)) = _
  rw [pay2_eq, pay9_apply]

/-- The new maximum is the body's joined maximum. -/
theorem newMax_eq : newMax x0 x1 x2 x3 μ = k0_pay9 x0 x1 x2 x3 μ := pay2_eq _

/-- The new sum. -/
theorem newSum_apply :
    newSum x0 x1 x2 x3 μ l (ix2 (0 : Fin 1) (0 : Fin 1))
      = Ideal.exp (μ (ix2 (0 : Fin 1) (0 : Fin 1)) - newMax x0 x1 x2 x3 μ (ix2 (0 : Fin 1) (0 : Fin 1))) * l (ix2 (0 : Fin 1) (0 : Fin 1))
        + ∑ tt : Fin 4096, Ideal.exp (tscore x0 x1 x2 x3 tt - newMax x0 x1 x2 x3 μ (ix2 (0 : Fin 1) (0 : Fin 1))) := by
  rw [newMax_eq]
  show k0_pay12 x0 x1 x2 x3 μ l (ix2 (0 : Fin 1) (0 : Fin 1)) = _
  rw [pay12_apply, pay10_apply]
  simp only [pay11_apply]

/-- The new accumulator at feature `d`. -/
theorem newAcc_apply (d : Fin 256) :
    newAcc x0 x1 x2 x3 μ acc (ix2 (0 : Fin 1) d)
      = Ideal.exp (μ (ix2 (0 : Fin 1) (0 : Fin 1)) - newMax x0 x1 x2 x3 μ (ix2 (0 : Fin 1) (0 : Fin 1))) * acc (ix2 (0 : Fin 1) d)
        + ∑ tt : Fin 4096, Ideal.exp (tscore x0 x1 x2 x3 tt - newMax x0 x1 x2 x3 μ (ix2 (0 : Fin 1) (0 : Fin 1)))
            * x1 (ix3 (0 : Fin 1) tt d) := by
  rw [newMax_eq]
  show k0_pay1 (k0_pay7 x1) (k0_pay10 x0 x1 x2 x3 μ) (k0_pay11 x0 x1 x2 x3 μ) acc (ix2 (0 : Fin 1) d) = _
  rw [pay1_apply, pay10_apply]
  simp only [pay11_apply]

/-- The tile's largest score, when the scores are the reals `σ`: their maximum from `⊥`. -/
theorem tmax_eq (σ : Fin 4096 → ℝ) (h : ∀ tt, tscore x0 x1 x2 x3 tt = (σ tt : EReal)) :
    tmax x0 x1 x2 x3 = Finset.univ.fold max ⊥ (fun tt => (σ tt : EReal)) := by
  unfold tmax
  rw [Point.ofBits_neg_inf_f32]
  exact congrArg (Finset.univ.fold max ⊥) (funext h)

end Tile

/-! ## The two tiles of a row -/

/-- With `x` the blocks of a row's first tile and `y` those of its second, scores and entries reals: what the second
    tile stores is the softmax of the row's scores weighting the row's entries at feature `d`. -/
theorem two_points (x0 : Vec Ideal S1x1x256 .f32) (x1 : Vec Ideal S1x4096x256 .f32) (x2 : Vec Ideal S256x256 .f32)
    (x3 : Vec Ideal S256x1 .f32) (y0 : Vec Ideal S1x1x256 .f32) (y1 : Vec Ideal S1x4096x256 .f32)
    (y2 : Vec Ideal S256x256 .f32) (y3 : Vec Ideal S256x1 .f32) (s x : Fin 8192 → ℝ) (d : Fin 256)
    (hs0 : ∀ tt, tscore x0 x1 x2 x3 tt = (s (lo tt) : EReal))
    (hs1 : ∀ tt, tscore y0 y1 y2 y3 tt = (s (hi tt) : EReal))
    (hx0 : ∀ tt, x1 (ix3 (0 : Fin 1) tt d) = (x (lo tt) : EReal))
    (hx1 : ∀ tt, y1 (ix3 (0 : Fin 1) tt d) = (x (hi tt) : EReal)) :
    k0_pay3 (newAcc y0 y1 y2 y3 (newMax x0 x1 x2 x3 (k0_pay4 (F := Ideal))) (newAcc x0 x1 x2 x3 (k0_pay4 (F := Ideal)) (k0_pay6 (F := Ideal))))
        (newSum y0 y1 y2 y3 (newMax x0 x1 x2 x3 (k0_pay4 (F := Ideal))) (newSum x0 x1 x2 x3 (k0_pay4 (F := Ideal)) (k0_pay5 (F := Ideal))))
        (ix3 (0 : Fin 1) (0 : Fin 1) d)
      = Cert.Spec.attend (fun τ => (s τ : EReal)) (fun τ => (x τ : EReal)) := by
  rw [pay3_apply]
  refine Cert.TwoTile.two_tile (by decide) lo hi split s x
    (newMax x0 x1 x2 x3 (k0_pay4 (F := Ideal)) (ix2 (0 : Fin 1) (0 : Fin 1)))
    (newSum x0 x1 x2 x3 (k0_pay4 (F := Ideal)) (k0_pay5 (F := Ideal)) (ix2 (0 : Fin 1) (0 : Fin 1)))
    (newAcc x0 x1 x2 x3 (k0_pay4 (F := Ideal)) (k0_pay6 (F := Ideal)) (ix2 (0 : Fin 1) d))
    (newMax y0 y1 y2 y3 (newMax x0 x1 x2 x3 (k0_pay4 (F := Ideal))) (ix2 (0 : Fin 1) (0 : Fin 1))) _ _ ?_ ?_ ?_ ?_ ?_ ?_
  · rw [newMax_apply, pay4_apply, tmax_eq x0 x1 x2 x3 (fun tt => s (lo tt)) hs0]
  · rw [newSum_apply, pay4_apply, pay5_apply]
    simp only [hs0]
  · rw [newAcc_apply, pay4_apply, pay6_apply]
    simp only [hs0, hx0]
  · rw [newMax_apply y0 y1 y2 y3, tmax_eq y0 y1 y2 y3 (fun tt => s (hi tt)) hs1]
  · rw [newSum_apply y0 y1 y2 y3]
    simp only [hs1]
  · rw [newAcc_apply y0 y1 y2 y3]
    simp only [hs1, hx1]

end Cert.KernelIdeal.Stats

end
-- ==== Proof.SpecReal.lean ====
/-
  On finite inputs every score is a real number.

  The score is built from the entries of the five arrays by finite sums, products, one sum of two terms and `tanh`;
  each of these sends coerced reals to a coerced real (`tanh` of a real is the real hyperbolic tangent), so the score
  of every time step is the coercion of a real.
-/
import proofs.«426070_j55954833932485_3_alg».proof.Proof.Spec
import proofs.«426070_j55954833932485_3_alg».proof.Proof.LibOnlineSoftmax

noncomputable section

open scoped BigOperators

namespace Cert.Spec

open Idealize.ShloMosaic Idealize.ShloMosaic.ValueIdx Cert.LibOnlineSoftmax

/-- A finite sum of coerced reals is a coerced real. -/
theorem sum_real {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [coe_finset_sum]; exact Finset.sum_congr rfl (fun i _ => hg i)⟩

/-- A product of coerced reals is a coerced real. -/
theorem mul_real {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb; exact ⟨x * y, (EReal.coe_mul x y).symm⟩

/-- A sum of two coerced reals is a coerced real. -/
theorem add_real {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb; exact ⟨x + y, (EReal.coe_add x y).symm⟩

/-- `tanh` of a coerced real is a coerced real. -/
theorem tanh_real {a : EReal} (ha : ∃ r : ℝ, a = (r : EReal)) : ∃ r : ℝ, Ideal.tanh a = (r : EReal) := by
  obtain ⟨x, rfl⟩ := ha; exact ⟨Real.tanh x, rfl⟩

/-- **The scores are reals** when every entry of the five arrays is. -/
theorem score_real (q : SQ.Idx → EReal) (v : SV.Idx → EReal) (w1 w2 : SW.Idx → EReal) (vc : SC.Idx → EReal)
    (hq : ∀ i, ∃ r : ℝ, q i = (r : EReal)) (hv : ∀ i, ∃ r : ℝ, v i = (r : EReal))
    (hw1 : ∀ i, ∃ r : ℝ, w1 i = (r : EReal)) (hw2 : ∀ i, ∃ r : ℝ, w2 i = (r : EReal))
    (hvc : ∀ i, ∃ r : ℝ, vc i = (r : EReal)) (b : Fin 16) (t : Fin 8192) :
    ∃ r : ℝ, score q v w1 w2 vc b t = (r : EReal) := by
  unfold score key hid
  exact sum_real _ _ fun u => mul_real (tanh_real (add_real (sum_real _ _ fun k => mul_real (hv _) (hw1 _))
    (sum_real _ _ fun k => mul_real (hq _) (hw2 _)))) (hvc _)

end Cert.Spec

end
-- ==== Proof.KernelTiles.lean ====
/-
  What the flushing grid points write back.

  Grid point `t` works on batch row `t / 2`.  An even point is the first tile of its row: it resets the three
  statistics and moves them once, so after it they are the statistics of the first tile started from `−∞`, `0`, `0`.
  The odd point after it is the second and last tile: it moves the statistics it finds once more and stores the
  accumulator divided by the sum.  The scores of the two tiles are the row's scores at the time steps `tt` and
  `4096 + tt`, and the value tiles are the row's entries there; on finite inputs all of them are reals, so what the
  odd point stores at feature `d` is the context vector at `(t / 2, d)`.
-/
import proofs.«426070_j55954833932485_3_alg».proof.Proof.Gen.KernelIdeal.Frame
import proofs.«426070_j55954833932485_3_alg».proof.Proof.KernelGrid
import proofs.«426070_j55954833932485_3_alg».proof.Proof.KernelBlocks
import proofs.«426070_j55954833932485_3_alg».proof.Proof.KernelArray
import proofs.«426070_j55954833932485_3_alg».proof.Proof.KernelPieces
import proofs.«426070_j55954833932485_3_alg».proof.Proof.KernelStats
import proofs.«426070_j55954833932485_3_alg».proof.Proof.SpecReal

noncomputable section

open scoped BigOperators

namespace Cert.KernelIdeal.Tiles

open Cert.KernelIdeal Cert.KernelIdeal.Gen Cert.KernelIdeal.Grid Cert.KernelIdeal.Blocks Cert.KernelIdeal.Pieces
open Cert.KernelIdeal.Point Cert.KernelIdeal.Stats
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The statistics after the first tile of a row, the output after the second -/

/-- After an even point the three statistics are those of its tile started from the reset values. -/
theorem stats_even (c : Dev nD) (t : Fin cfg0.N) (h0 : t.val % 2 = 0) :
    (outsAt0 m c t.val t.isLt).2.1 = newMax (hblk m c t) (vblk m c t) (w1blk m c t) (vcblk m c t) (k0_pay4 (F := Ideal))
    ∧ (outsAt0 m c t.val t.isLt).2.2.1 = newSum (hblk m c t) (vblk m c t) (w1blk m c t) (vcblk m c t) (k0_pay4 (F := Ideal)) (k0_pay5 (F := Ideal))
    ∧ (outsAt0 m c t.val t.isLt).2.2.2 = newAcc (hblk m c t) (vblk m c t) (w1blk m c t) (vcblk m c t) (k0_pay4 (F := Ideal)) (k0_pay6 (F := Ideal)) := by
  have h1 : ¬t.val % 2 = 1 := by omega
  rw [outsAt0_A m c t h0 h1]
  dsimp only
  exact ⟨sA_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    sA_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    sA_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)⟩

/-- The point before an odd point. -/
def prev (t : Fin cfg0.N) : Fin cfg0.N := ⟨t.val - 1, Nat.lt_of_le_of_lt (Nat.sub_le _ _) t.isLt⟩

/-- After an odd point the output buffer holds the quotient of the statistics moved from what the point before left. -/
theorem out_odd (c : Dev nD) (t : Fin cfg0.N) (h1 : t.val % 2 = 1) :
    (outsAt0 m c t.val t.isLt).1
      = k0_pay3 (newAcc (hblk m c t) (vblk m c t) (w1blk m c t) (vcblk m c t) (outsAt0 m c (prev t).val (prev t).isLt).2.1 (outsAt0 m c (prev t).val (prev t).isLt).2.2.2)
          (newSum (hblk m c t) (vblk m c t) (w1blk m c t) (vcblk m c t) (outsAt0 m c (prev t).val (prev t).isLt).2.1 (outsAt0 m c (prev t).val (prev t).isLt).2.2.1) := by
  have h0 : ¬t.val % 2 = 0 := by omega
  rw [outsAt0_B m c t h0 h1]
  dsimp only
  exact oB_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2.1
    (outsAt0 m c (t.val - 1) (Nat.lt_of_le_of_lt (Nat.sub_le _ _) t.isLt)).2.2.1
    (outsAt0 m c (t.val - 1) (Nat.lt_of_le_of_lt (Nat.sub_le _ _) t.isLt)).2.2.2

/-! ## The grid arithmetic of an odd point and the point before it -/

theorem prev_even (t : Fin cfg0.N) (h1 : t.val % 2 = 1) : (prev t).val % 2 = 0 := by
  show (t.val - 1) % 2 = 0
  omega

/-- The point before an odd point works on the same batch row, -/
theorem brow_prev (t : Fin cfg0.N) (h1 : t.val % 2 = 1) : brow (prev t) = brow t :=
  Fin.ext (by show (t.val - 1) / 2 = t.val / 2; omega)

/-- on the first tile of the time axis; -/
theorem trow_prev (t : Fin cfg0.N) (h1 : t.val % 2 = 1) (tt : Fin 4096) : trow (prev t) tt = lo tt :=
  Fin.ext (by show (t.val - 1) % 2 * 4096 + tt.val = tt.val; omega)

/-- the odd point itself on the second. -/
theorem trow_odd (t : Fin cfg0.N) (h1 : t.val % 2 = 1) (tt : Fin 4096) : trow t tt = hi tt :=
  Fin.ext (by show t.val % 2 * 4096 + tt.val = 4096 + tt.val; omega)

/-! ## What a flushing point writes back -/

/-- The function the output array ends holding: the context vector, row `b` at `(b, 0, ·)`. -/
def GV (c : Dev nD) : Buf (Elt Ideal) ((c : Thread nD τ).loc main_v2) :=
  fun (i : S16x1x256.Idx) => Cert.Spec.G (aq m c) (av m c) (aw1 m c) (aw2 m c) (avc m c) (ix2 (i 0) (i 2))

theorem GV_apply (c : Dev nD) (b : Fin 16) (o : Fin 1) (d : Fin 256) :
    GV m c (ix3 b o d) = Cert.Spec.G (aq m c) (av m c) (aw1 m c) (aw2 m c) (avc m c) (ix2 b d) := rfl

/-- On finite inputs, the block an odd point writes back is the restriction of the context vector. -/
theorem flushed_eq (c : Dev nD) (hq : ∀ i, ∃ r : ℝ, aq m c i = (r : EReal)) (hv : ∀ i, ∃ r : ℝ, av m c i = (r : EReal))
    (hw1 : ∀ i, ∃ r : ℝ, aw1 m c i = (r : EReal)) (hw2 : ∀ i, ∃ r : ℝ, aw2 m c i = (r : EReal))
    (hvc : ∀ i, ∃ r : ℝ, avc m c i = (r : EReal)) (t : Fin cfg0.N) (hf : (cfg0.win 4).flush t = true) :
    (dats m 0 c).flushed 4 t = ((cfg0.win 4).blk t).view.read (Elt Ideal) (GV m c) := by
  have h1 : t.val % 2 = 1 := (flush0_4 t).mp hf
  show (cfg0.win 4).cut (grid0.coords t) ((dats m 0 c).after 4 t) = _
  rw [after0_4]
  show ((outsAt0 m c t.val t.isLt).1 : S1x1x256.Idx → EReal)
      = (((cfg0.win 4).blk t).view.read (Elt Ideal) (GV m c) : Vec Ideal S1x1x256 .f32)
  funext y
  obtain ⟨a, b, d, rfl⟩ : ∃ (a b : Fin 1) (d : Fin 256), y = ix3 a b d := ⟨y 0, y 1, y 2, eq_ix3 y⟩
  obtain rfl : a = 0 := Subsingleton.elim _ _
  obtain rfl : b = 0 := Subsingleton.elim _ _
  refine Eq.trans ?_ (Cert.KernelIdeal.Arr.read_blk4 c t (GV m c) d).symm
  rw [GV_apply, out_odd m c t h1]
  obtain ⟨e0, e1, e2⟩ := stats_even m c (prev t) (prev_even t h1)
  rw [e0, e1, e2]
  -- the scores of the row and its entries at feature `d` are reals
  choose s hs using fun τ : Fin 8192 =>
    Cert.Spec.score_real (aq m c) (av m c) (aw1 m c) (aw2 m c) (avc m c) hq hv hw1 hw2 hvc (brow t) τ
  choose x hx using fun τ : Fin 8192 => hv (ix3 (brow t) τ d)
  refine (two_points (hblk m c (prev t)) (vblk m c (prev t)) (w1blk m c (prev t)) (vcblk m c (prev t)) (hblk m c t) (vblk m c t) (w1blk m c t) (vcblk m c t) s x d ?_ ?_ ?_ ?_).trans ?_
  · intro tt
    rw [tscore_blocks m c (prev t) tt, brow_prev t h1, trow_prev t h1 tt, hs]
  · intro tt
    rw [tscore_blocks m c t tt, trow_odd t h1 tt, hs]
  · intro tt
    rw [vblk_apply m c (prev t) tt d, brow_prev t h1, trow_prev t h1 tt, hx]
  · intro tt
    rw [vblk_apply m c t tt d, trow_odd t h1 tt, hx]
  · show _ = Cert.Spec.attend (Cert.Spec.score (aq m c) (av m c) (aw1 m c) (aw2 m c) (avc m c) (brow t))
        (fun τ => av m c (ix3 (brow t) τ d))
    rw [show (fun τ => ((s τ : ℝ) : EReal)) = Cert.Spec.score (aq m c) (av m c) (aw1 m c) (aw2 m c) (avc m c) (brow t) from
        funext fun τ => (hs τ).symm,
      show (fun τ => ((x τ : ℝ) : EReal)) = (fun τ => av m c (ix3 (brow t) τ d)) from funext fun τ => (hx τ).symm]

end Cert.KernelIdeal.Tiles

end
-- ==== Proof.KernelRun.lean ====
/-
  The idealized kernel's run with its result named.

  On finite inputs every flushing grid point writes back a row of the context vector, the sixteen rows tile the
  output array, and the reshape after the call reads that array at `(b, 0, d)`: so the program ends with its result
  at the context vector `Cert.Spec.G` of the five argument arrays, and with the arguments as launched.
-/
import proofs.«426070_j55954833932485_3_alg».proof.Proof.Gen.KernelIdeal.Frame
import proofs.«426070_j55954833932485_3_alg».proof.Proof.KernelArray
import proofs.«426070_j55954833932485_3_alg».proof.Proof.KernelTiles
import proofs.«426070_j55954833932485_3_alg».proof.Proof.Spec

noncomputable section

namespace Cert.KernelIdeal.KRun

open Cert.KernelIdeal Cert.KernelIdeal.Gen Cert.KernelIdeal.Grid Cert.KernelIdeal.Blocks Cert.KernelIdeal.Tiles
open Idealize.ShloMosaic Idealize.ShloMosaic.TcCoe Idealize.ShloMosaic.ValueIdx Idealize.SL.Sem

variable (m : (ℓ : Loc nD τ sig) → Buf (Elt Ideal) ℓ) (ρ : Dev nD → PrngReg)

/-- The reshaped output array is the context vector, index by index. -/
theorem result_eq (c : Dev nD) (hq : ∀ i, ∃ r : ℝ, aq m c i = (r : EReal)) (hv : ∀ i, ∃ r : ℝ, av m c i = (r : EReal))
    (hw1 : ∀ i, ∃ r : ℝ, aw1 m c i = (r : EReal)) (hw2 : ∀ i, ∃ r : ℝ, aw2 m c i = (r : EReal))
    (hvc : ∀ i, ∃ r : ℝ, avc m c i = (r : EReal)) :
    Pipeline.afterTail₀ cfgs (dats m) 0 (V0 m) [hostOps1] c main_v3
      = Cert.Spec.G (aq m c) (av m c) (aw1 m c) (aw2 m c) (avc m c) := by
  show (Pipeline.afterTail₀ cfgs (dats m) 0 (V0 m) [hostOps1] c main_v3 : S16x256.Idx → EReal) = _
  funext j
  obtain ⟨b, d, rfl⟩ : ∃ (b : Fin 16) (d : Fin 256), j = ix2 b d := ⟨j 0, j 1, eq_ix2 j⟩
  exact (Cert.KernelIdeal.Arr.tail_of m c (GV m c)
    (Cert.KernelIdeal.Arr.final_of m c (GV m c) (flushed_eq m c hq hv hw1 hw2 hvc)) b d).trans (GV_apply m c b 0 d)

/-- On finite inputs every weakly fair execution of the idealized kernel ends with the result at the context vector
    of the arguments and the arguments unchanged. -/
theorem run (hreal : ∀ c : Dev nD, (∀ i, ∃ r : ℝ, aq m c i = (r : EReal)) ∧ (∀ i, ∃ r : ℝ, av m c i = (r : EReal))
      ∧ (∀ i, ∃ r : ℝ, aw1 m c i = (r : EReal)) ∧ (∀ i, ∃ r : ℝ, aw2 m c i = (r : EReal))
      ∧ (∀ i, ∃ r : ℝ, avc m c i = (r : EReal))) :
    θ_run defs (onTc (τ := τ) (main (F := Ideal))) ⟨m, fun _ => 0, ρ⟩ (fun r => ∀ c : Dev nD,
      r.2.mem ((c.tc : Thread nD τ).loc main_v3) = Cert.Spec.G (aq m c) (av m c) (aw1 m c) (aw2 m c) (avc m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Cert.KernelIdeal.Arr.run_of m ρ (fun c => Cert.Spec.G (aq m c) (av m c) (aw1 m c) (aw2 m c) (avc m c))
    (fun c => result_eq m c (hreal c).1 (hreal c).2.1 (hreal c).2.2.1 (hreal c).2.2.2.1 (hreal c).2.2.2.2)

end Cert.KernelIdeal.KRun

end
-- ==== Proof.lean ====
/-
  Additive attention: a kernel that reads the time axis in two tiles against the whole-axis softmax.

  For each of 16 batch rows the score of time step `t` is `∑ᵤ tanh (∑ₖ value[b,t,k] · W1[k,u] + ∑ₖ query[b,k] · W2[k,u]) · V[u]`,
  and the result is the softmax of the 8192 scores over time weighting the rows `value[b,t,·]`.  The reference computes
  exactly this, normalising at the row's maximum.  The kernel never forms the softmax: at each of two time tiles of
  4096 steps it keeps a running maximum `m`, a running sum `l` and a running weighted row `acc`, rescaling `l` and
  `acc` by `exp (m − m')` when the maximum moves to `m'`, and stores `acc / l` after the second tile.

  Over the reals `exp (m − m') · exp (s − m) = exp (s − m')`, so after both tiles `l = ∑ₜ exp (sₜ − m)` and
  `acc = ∑ₜ exp (sₜ − m) · valueₜ` over the whole axis, and a softmax does not depend on the shift it is normalised at;
  the start values `−∞`, `0`, `0` drop out because `exp (−∞ − m) = 0`.  These steps need every score and entry to be
  a real number (at `±∞` the rescaling law and the quotient fail), which is what the finiteness of the inputs gives:
  `tanh` of a real is a real and sums and products of reals are reals.  Changes of float format are the identity on
  the extended reals, and the three matrix products of the body are plain sums over their contracted index.

  Both idealized programs therefore end with the same function of the five arguments, `Cert.Spec.G`, index by index.
  The frames of the two kernel programs are their runs with the values forgotten; the reference's frame is its run
  with the result dropped; the idealization rewrote no operation.
-/
import proofs.«426070_j55954833932485_3_alg».proof.Defs
import proofs.«426070_j55954833932485_3_alg».proof.Proof.Gen.Kernel
import proofs.«426070_j55954833932485_3_alg».proof.Proof.Gen.Kernel.Frame
import proofs.«426070_j55954833932485_3_alg».proof.Proof.Gen.KernelIdeal
import proofs.«426070_j55954833932485_3_alg».proof.Proof.Gen.KernelIdeal.Frame
import proofs.«426070_j55954833932485_3_alg».proof.Proof.Gen.ReferenceIdeal
import proofs.«426070_j55954833932485_3_alg».proof.Proof.Gen.ReferenceIdeal.Run
import proofs.«426070_j55954833932485_3_alg».proof.Proof.Gen.ReferenceIdeal.Read
import proofs.«426070_j55954833932485_3_alg».proof.Proof.Gen.Pre_finite_inputs
import proofs.«426070_j55954833932485_3_alg».proof.Proof.Finite
import proofs.«426070_j55954833932485_3_alg».proof.Proof.RefValue
import proofs.«426070_j55954833932485_3_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On finite inputs the two idealized programs end at the same context vector: the kernel's two-tile recurrence and
    the reference's whole-axis softmax are one function of the arguments. -/
theorem algebraic : Cert.algebraic_KernelIdeal_ReferenceIdeal := by
  intro m ρ m' ρ' hpre hagree
  have hreal := fun c => Cert.Finite.real_of_pre _ _ _ _ _ (hpre c)
  refine ⟨fun c => Cert.Spec.G (Cert.KernelIdeal.Blocks.aq m c) (Cert.KernelIdeal.Blocks.av m c)
      (Cert.KernelIdeal.Blocks.aw1 m c) (Cert.KernelIdeal.Blocks.aw2 m c) (Cert.KernelIdeal.Blocks.avc m c),
    Cert.KernelIdeal.KRun.run m ρ hreal, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v20_eq _ _ _ _ _).trans (Cert.ReferenceIdeal.RefValue.val_eq_G _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
